-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v61)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v61) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v90) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg5 : FVec F S64 .f32) (main_v13 : IVec S_ 1) (main_v16 : IVec S128x64 1) : IVec S_ 1 :=
  let main_c_5 : IVec S_ 1 := constantI S_ 1 1#1
  let main_v17 : IVec S_ 1 := (fun x v => Host.reduce IntOp.andi x v reducesTo_S128x64_S_d0_1 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  main_v23

def fn {F : FTy → Type} [FloatOps F] (main_arg0 : FVec F S100000x128 .f32) (main_arg1 : IVec S2x1600000 32) (main_arg2 : FVec F S128x128 .f32) (main_arg3 : FVec F S128 .f32) (main_arg4 : FVec F S128x64 .f32) (main_arg5 : FVec F S64 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x64 .f32 := Host.absf main_arg4
  let main_cst_4 : FVec F S_ .f32 := constant S_ .f32 0x7F800000#32
  let main_v15 : FVec F S128x64 .f32 := broadcastInDim S128x64 ![] bcast_S_S128x64 main_cst_4
  let main_v16 : IVec S128x64 1 := cmpf .olt main_v14 main_v15
  fn_part1 (F := F) main_arg5 main_v13 main_v16
-- ==== Kernel.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S1x1600000 : Shape := ⟨2, ![1, 1600000]⟩
abbrev S1600000 : Shape := ⟨1, ![1600000]⟩
abbrev S100000 : Shape := ⟨1, ![100000]⟩
abbrev S1700000 : Shape := ⟨1, ![1700000]⟩
abbrev S_ : Shape := ⟨0, ![]⟩
abbrev S1700000x1 : Shape := ⟨2, ![1700000, 1]⟩
abbrev S5000x128 : Shape := ⟨2, ![5000, 128]⟩
abbrev S1700000x128 : Shape := ⟨2, ![1700000, 128]⟩
abbrev S1x128 : Shape := ⟨2, ![1, 128]⟩
abbrev S100000x64 : Shape := ⟨2, ![100000, 64]⟩
abbrev S5000x64 : Shape := ⟨2, ![5000, 64]⟩
abbrev S1700000x64 : Shape := ⟨2, ![1700000, 64]⟩
abbrev S1x64 : Shape := ⟨2, ![1, 64]⟩

abbrev nBuf : Space → Nat
  | .hbm => 84
  | .vmem => 20
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S128x64, .f32⟩
  | .hbm, ⟨5, _⟩ => ⟨S64, .f32⟩
  | .hbm, ⟨6, _⟩ => ⟨S1x1600000, .i32⟩
  | .hbm, ⟨7, _⟩ => ⟨S1600000, .i32⟩
  | .hbm, ⟨8, _⟩ => ⟨S1x1600000, .i32⟩
  | .hbm, ⟨9, _⟩ => ⟨S1600000, .i32⟩
  | .hbm, ⟨10, _⟩ => ⟨S100000, .i32⟩
  | .hbm, ⟨11, _⟩ => ⟨S1700000, .i32⟩
  | .hbm, ⟨12, _⟩ => ⟨S1700000, .i32⟩
  | .hbm, ⟨13, _⟩ => ⟨S_, .f32⟩
  | .hbm, ⟨14, _⟩ => ⟨S1700000, .f32⟩
  | .hbm, ⟨15, _⟩ => ⟨S_, .f32⟩
  | .hbm, ⟨16, _⟩ => ⟨S100000, .f32⟩
  | .hbm, ⟨17, _⟩ => ⟨S1700000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .i1⟩
  | .hbm, ⟨22, _⟩ => ⟨S100000, .f32⟩
  | .hbm, ⟨23, _⟩ => ⟨S_, .f32⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S_, .i32⟩
  | .hbm, ⟨28, _⟩ => ⟨S1700000, .i32⟩
  | .hbm, ⟨29, _⟩ => ⟨S1700000, .i1⟩
  | .hbm, ⟨30, _⟩ => ⟨S_, .i32⟩
  | .hbm, ⟨31, _⟩ => ⟨S1700000, .i32⟩
  | .hbm, ⟨32, _⟩ => ⟨S1700000, .i32⟩
  | .hbm, ⟨33, _⟩ => ⟨S1700000, .i32⟩
  | .hbm, ⟨34, _⟩ => ⟨S1700000x1, .i32⟩
  | .hbm, ⟨35, _⟩ => ⟨S1700000, .f32⟩
  | .hbm, ⟨36, _⟩ => ⟨S_, .i32⟩
  | .hbm, ⟨37, _⟩ => ⟨S1700000, .i32⟩
  | .hbm, ⟨38, _⟩ => ⟨S1700000, .i1⟩
  | .hbm, ⟨39, _⟩ => ⟨S_, .i32⟩
  | .hbm, ⟨40, _⟩ => ⟨S1700000, .i32⟩
  | .hbm, ⟨41, _⟩ => ⟨S1700000, .i32⟩
  | .hbm, ⟨42, _⟩ => ⟨S1700000, .i32⟩
  | .hbm, ⟨43, _⟩ => ⟨S1700000x1, .i32⟩
  | .hbm, ⟨44, _⟩ => ⟨S1700000, .f32⟩
  | .hbm, ⟨45, _⟩ => ⟨S1700000, .f32⟩
  | .hbm, ⟨46, _⟩ => ⟨S100000x128, .f32⟩
  | .hbm, ⟨47, _⟩ => ⟨S_, .i32⟩
  | .hbm, ⟨48, _⟩ => ⟨S1700000, .i32⟩
  | .hbm, ⟨49, _⟩ => ⟨S1700000, .i1⟩
  | .hbm, ⟨50, _⟩ => ⟨S_, .i32⟩
  | .hbm, ⟨51, _⟩ => ⟨S1700000, .i32⟩
  | .hbm, ⟨52, _⟩ => ⟨S1700000, .i32⟩
  | .hbm, ⟨53, _⟩ => ⟨S1700000, .i32⟩
  | .hbm, ⟨54, _⟩ => ⟨S1700000x1, .i32⟩
  | .hbm, ⟨55, _⟩ => ⟨S1700000x128, .f32⟩
  | .hbm, ⟨56, _⟩ => ⟨S1700000x1, .f32⟩
  | .hbm, ⟨57, _⟩ => ⟨S1700000x128, .f32⟩
  | .hbm, ⟨58, _⟩ => ⟨S1700000x128, .f32⟩
  | .hbm, ⟨59, _⟩ => ⟨S_, .f32⟩
  | .hbm, ⟨60, _⟩ => ⟨S100000x128, .f32⟩
  | .hbm, ⟨61, _⟩ => ⟨S1700000x1, .i32⟩
  | .hbm, ⟨62, _⟩ => ⟨S100000x128, .f32⟩
  | .hbm, ⟨63, _⟩ => ⟨S1x128, .f32⟩
  | .hbm, ⟨64, _⟩ => ⟨S100000x128, .f32⟩
  | .hbm, ⟨65, _⟩ => ⟨S100000x64, .f32⟩
  | .hbm, ⟨66, _⟩ => ⟨S_, .i32⟩
  | .hbm, ⟨67, _⟩ => ⟨S1700000, .i32⟩
  | .hbm, ⟨68, _⟩ => ⟨S1700000, .i1⟩
  | .hbm, ⟨69, _⟩ => ⟨S_, .i32⟩
  | .hbm, ⟨70, _⟩ => ⟨S1700000, .i32⟩
  | .hbm, ⟨71, _⟩ => ⟨S1700000, .i32⟩
  | .hbm, ⟨72, _⟩ => ⟨S1700000, .i32⟩
  | .hbm, ⟨73, _⟩ => ⟨S1700000x1, .i32⟩
  | .hbm, ⟨74, _⟩ => ⟨S1700000x64, .f32⟩
  | .hbm, ⟨75, _⟩ => ⟨S1700000x1, .f32⟩
  | .hbm, ⟨76, _⟩ => ⟨S1700000x64, .f32⟩
  | .hbm, ⟨77, _⟩ => ⟨S1700000x64, .f32⟩
  | .hbm, ⟨78, _⟩ => ⟨S_, .f32⟩
  | .hbm, ⟨79, _⟩ => ⟨S100000x64, .f32⟩
  | .hbm, ⟨80, _⟩ => ⟨S1700000x1, .i32⟩
  | .hbm, ⟨81, _⟩ => ⟨S100000x64, .f32⟩
  | .hbm, ⟨82, _⟩ => ⟨S1x64, .f32⟩
  | .hbm, ⟨83, _⟩ => ⟨S100000x64, .f32⟩
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S5000x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S1x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S128x64, .f32⟩
  | .local _ .vmem, ⟨13, _⟩ => ⟨S5000x64, .f32⟩
  | .local _ .vmem, ⟨14, _⟩ => ⟨S5000x64, .f32⟩
  | .local _ .vmem, ⟨15, _⟩ => ⟨S5000x64, .f32⟩
  | .local _ .vmem, ⟨16, _⟩ => ⟨S5000x64, .f32⟩
  | .local _ .vmem, ⟨17, _⟩ => ⟨S1x64, .f32⟩
  | .local _ .vmem, ⟨18, _⟩ => ⟨S5000x64, .f32⟩
  | .local _ .vmem, ⟨19, _⟩ => ⟨S5000x64, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_c : Ref sig .tc := ⟨.hbm, 27, rfl⟩
abbrev main_v15 : Ref sig .tc := ⟨.hbm, 28, rfl⟩
abbrev main_v16 : Ref sig .tc := ⟨.hbm, 29, rfl⟩
abbrev main_c_3 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_c_4 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_c_9 : Ref sig .tc := ⟨.hbm, 66, rfl⟩
abbrev main_v47 : Ref sig .tc := ⟨.hbm, 67, rfl⟩
abbrev main_v48 : Ref sig .tc := ⟨.hbm, 68, rfl⟩
abbrev main_c_10 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_cst_11 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg2_1 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem2_1 : DmaSem sig := 19

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x64 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S5000x64 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  concatenates_S1600000_S100000_S1700000_d0 : Shape.Concatenates [S1600000, S100000] S1700000 0
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  shapeCasts_S128_S1x128 : S128.ShapeCasts S1x128
  shapeCasts_S5000x128_S5000x128 : S5000x128.ShapeCasts S5000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  inb_S128x64_S128x64_0_0 : ∀ a, (![0, 0] : Fin 2 → Nat) a + S128x64.size a ≤ S128x64.size a
  h_S128x64 : 0 < S128x64.numel
  inb_S5000x64_S5000x64_0_0 : ∀ a, (![0, 0] : Fin 2 → Nat) a + S5000x64.size a ≤ S5000x64.size a
  h_S5000x64 : 0 < S5000x64.numel
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  shapeCasts_S64_S1x64 : S64.ShapeCasts S1x64
  shapeCasts_S5000x64_S5000x64 : S5000x64.ShapeCasts S5000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S5000x128_S128x128_S5000x128_1_0_0_1_n_n_wf : DotDims.WF S5000x128 S128x128 S5000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S5000x128_S128x64_S5000x64_1_0_0_1_n_n_wf : DotDims.WF S5000x128 S128x64 S5000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S100000x128.size a
  hwx0_2 : ∀ i : grid0.Coords, EltTy.bits .f32 = 32 ∨ (Rect.block (s := S100000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x128.size a ≤ S100000x128.size a
  hwx1_2 : ∀ i : grid1.Coords, EltTy.bits .f32 = 32 ∨ (Rect.block (s := S100000x128) S5000x128.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S100000x128.size a
  hwx2_0 : ∀ i : grid2.Coords, EltTy.bits .f32 = 32 ∨ (Rect.block (s := S100000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x64.size a ≤ S128x64.size a
  hwx2_1 : ∀ i : grid2.Coords, EltTy.bits .f32 = 32 ∨ (Rect.block (s := S128x64) S128x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x64.size a ≤ S100000x64.size a
  hwx2_2 : ∀ i : grid2.Coords, EltTy.bits .f32 = 32 ∨ (Rect.block (s := S100000x64) S5000x64.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x64.size a ≤ S100000x64.size a
  hwx3_0 : ∀ i : grid3.Coords, EltTy.bits .f32 = 32 ∨ (Rect.block (s := S100000x64) S5000x64.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x64.size a ≤ S1x64.size a
  hwx3_1 : ∀ i : grid3.Coords, EltTy.bits .f32 = 32 ∨ (Rect.block (s := S1x64) S1x64.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x64.size a ≤ S100000x64.size a
  hwx3_2 : ∀ i : grid3.Coords, EltTy.bits .f32 = 32 ∨ (Rect.block (s := S100000x64) S5000x64.size (cc3_transform_2 i) (hinb3_2 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v30) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v43) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v44) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v45) S5000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v45) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg4) S128x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v46) S5000x64.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v59) S5000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v60) S1x64.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v61) S5000x64.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S1x1600000 : Shape := ⟨2, ![1, 1600000]⟩
abbrev S1600000 : Shape := ⟨1, ![1600000]⟩
abbrev S100000 : Shape := ⟨1, ![100000]⟩
abbrev S1700000 : Shape := ⟨1, ![1700000]⟩
abbrev S_ : Shape := ⟨0, ![]⟩
abbrev S1700000x1 : Shape := ⟨2, ![1700000, 1]⟩
abbrev S1700000x128 : Shape := ⟨2, ![1700000, 128]⟩
abbrev S1x128 : Shape := ⟨2, ![1, 128]⟩
abbrev S100000x64 : Shape := ⟨2, ![100000, 64]⟩
abbrev S1700000x64 : Shape := ⟨2, ![1700000, 64]⟩
abbrev S1x64 : Shape := ⟨2, ![1, 64]⟩

abbrev nBuf : Space → Nat
  | .hbm => 125
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S128x64, .f32⟩
  | .hbm, ⟨5, _⟩ => ⟨S64, .f32⟩
  | .hbm, ⟨6, _⟩ => ⟨S1x1600000, .i32⟩
  | .hbm, ⟨7, _⟩ => ⟨S1600000, .i32⟩
  | .hbm, ⟨8, _⟩ => ⟨S1x1600000, .i32⟩
  | .hbm, ⟨9, _⟩ => ⟨S1600000, .i32⟩
  | .hbm, ⟨10, _⟩ => ⟨S100000x128, .f32⟩
  | .hbm, ⟨11, _⟩ => ⟨S100000, .i32⟩
  | .hbm, ⟨12, _⟩ => ⟨S1700000, .i32⟩
  | .hbm, ⟨13, _⟩ => ⟨S1700000, .i32⟩
  | .hbm, ⟨14, _⟩ => ⟨S_, .f32⟩
  | .hbm, ⟨15, _⟩ => ⟨S1700000, .f32⟩
  | .hbm, ⟨16, _⟩ => ⟨S_, .f32⟩
  | .hbm, ⟨17, _⟩ => ⟨S100000, .f32⟩
  | .hbm, ⟨18, _⟩ => ⟨S1700000x1, .i32⟩
  | .hbm, ⟨19, _⟩ => ⟨S100000, .f32⟩
  | .hbm, ⟨20, _⟩ => ⟨S_, .f32⟩
  | .hbm, ⟨21, _⟩ => ⟨S100000, .f32⟩
  | .hbm, ⟨22, _⟩ => ⟨S100000, .i1⟩
  | .hbm, ⟨23, _⟩ => ⟨S100000, .f32⟩
  | .hbm, ⟨24, _⟩ => ⟨S_, .f32⟩
  | .hbm, ⟨25, _⟩ => ⟨S_, .f32⟩
  | .hbm, ⟨26, _⟩ => ⟨S100000, .f32⟩
  | .hbm, ⟨27, _⟩ => ⟨S100000, .f32⟩
  | .hbm, ⟨28, _⟩ => ⟨S_, .i32⟩
  | .hbm, ⟨29, _⟩ => ⟨S1700000, .i32⟩
  | .hbm, ⟨30, _⟩ => ⟨S1700000, .i1⟩
  | .hbm, ⟨31, _⟩ => ⟨S_, .i32⟩
  | .hbm, ⟨32, _⟩ => ⟨S1700000, .i32⟩
  | .hbm, ⟨33, _⟩ => ⟨S1700000, .i32⟩
  | .hbm, ⟨34, _⟩ => ⟨S1700000, .i32⟩
  | .hbm, ⟨35, _⟩ => ⟨S1700000x1, .i32⟩
  | .hbm, ⟨36, _⟩ => ⟨S1700000, .f32⟩
  | .hbm, ⟨37, _⟩ => ⟨S_, .i32⟩
  | .hbm, ⟨38, _⟩ => ⟨S1700000, .i32⟩
  | .hbm, ⟨39, _⟩ => ⟨S1700000, .i1⟩
  | .hbm, ⟨40, _⟩ => ⟨S_, .i32⟩
  | .hbm, ⟨41, _⟩ => ⟨S1700000, .i32⟩
  | .hbm, ⟨42, _⟩ => ⟨S1700000, .i32⟩
  | .hbm, ⟨43, _⟩ => ⟨S1700000, .i32⟩
  | .hbm, ⟨44, _⟩ => ⟨S1700000x1, .i32⟩
  | .hbm, ⟨45, _⟩ => ⟨S1700000, .f32⟩
  | .hbm, ⟨46, _⟩ => ⟨S1700000, .f32⟩
  | .hbm, ⟨47, _⟩ => ⟨S_, .i32⟩
  | .hbm, ⟨48, _⟩ => ⟨S1700000, .i32⟩
  | .hbm, ⟨49, _⟩ => ⟨S1700000, .i1⟩
  | .hbm, ⟨50, _⟩ => ⟨S_, .i32⟩
  | .hbm, ⟨51, _⟩ => ⟨S1700000, .i32⟩
  | .hbm, ⟨52, _⟩ => ⟨S1700000, .i32⟩
  | .hbm, ⟨53, _⟩ => ⟨S1700000, .i32⟩
  | .hbm, ⟨54, _⟩ => ⟨S1700000x1, .i32⟩
  | .hbm, ⟨55, _⟩ => ⟨S1700000x128, .f32⟩
  | .hbm, ⟨56, _⟩ => ⟨S1700000x1, .f32⟩
  | .hbm, ⟨57, _⟩ => ⟨S1700000x128, .f32⟩
  | .hbm, ⟨58, _⟩ => ⟨S1700000x128, .f32⟩
  | .hbm, ⟨59, _⟩ => ⟨S_, .f32⟩
  | .hbm, ⟨60, _⟩ => ⟨S100000x128, .f32⟩
  | .hbm, ⟨61, _⟩ => ⟨S1700000x1, .i32⟩
  | .hbm, ⟨62, _⟩ => ⟨S100000x128, .f32⟩
  | .hbm, ⟨63, _⟩ => ⟨S1x128, .f32⟩
  | .hbm, ⟨64, _⟩ => ⟨S100000x128, .f32⟩
  | .hbm, ⟨65, _⟩ => ⟨S100000x128, .f32⟩
  | .hbm, ⟨66, _⟩ => ⟨S_, .f32⟩
  | .hbm, ⟨67, _⟩ => ⟨S100000x128, .f32⟩
  | .hbm, ⟨68, _⟩ => ⟨S100000x128, .f32⟩
  | .hbm, ⟨69, _⟩ => ⟨S100000x64, .f32⟩
  | .hbm, ⟨70, _⟩ => ⟨S100000, .i32⟩
  | .hbm, ⟨71, _⟩ => ⟨S1700000, .i32⟩
  | .hbm, ⟨72, _⟩ => ⟨S1700000, .i32⟩
  | .hbm, ⟨73, _⟩ => ⟨S_, .f32⟩
  | .hbm, ⟨74, _⟩ => ⟨S1700000, .f32⟩
  | .hbm, ⟨75, _⟩ => ⟨S_, .f32⟩
  | .hbm, ⟨76, _⟩ => ⟨S100000, .f32⟩
  | .hbm, ⟨77, _⟩ => ⟨S1700000x1, .i32⟩
  | .hbm, ⟨78, _⟩ => ⟨S100000, .f32⟩
  | .hbm, ⟨79, _⟩ => ⟨S_, .f32⟩
  | .hbm, ⟨80, _⟩ => ⟨S100000, .f32⟩
  | .hbm, ⟨81, _⟩ => ⟨S100000, .i1⟩
  | .hbm, ⟨82, _⟩ => ⟨S100000, .f32⟩
  | .hbm, ⟨83, _⟩ => ⟨S_, .f32⟩
  | .hbm, ⟨84, _⟩ => ⟨S_, .f32⟩
  | .hbm, ⟨85, _⟩ => ⟨S100000, .f32⟩
  | .hbm, ⟨86, _⟩ => ⟨S100000, .f32⟩
  | .hbm, ⟨87, _⟩ => ⟨S_, .i32⟩
  | .hbm, ⟨88, _⟩ => ⟨S1700000, .i32⟩
  | .hbm, ⟨89, _⟩ => ⟨S1700000, .i1⟩
  | .hbm, ⟨90, _⟩ => ⟨S_, .i32⟩
  | .hbm, ⟨91, _⟩ => ⟨S1700000, .i32⟩
  | .hbm, ⟨92, _⟩ => ⟨S1700000, .i32⟩
  | .hbm, ⟨93, _⟩ => ⟨S1700000, .i32⟩
  | .hbm, ⟨94, _⟩ => ⟨S1700000x1, .i32⟩
  | .hbm, ⟨95, _⟩ => ⟨S1700000, .f32⟩
  | .hbm, ⟨96, _⟩ => ⟨S_, .i32⟩
  | .hbm, ⟨97, _⟩ => ⟨S1700000, .i32⟩
  | .hbm, ⟨98, _⟩ => ⟨S1700000, .i1⟩
  | .hbm, ⟨99, _⟩ => ⟨S_, .i32⟩
  | .hbm, ⟨100, _⟩ => ⟨S1700000, .i32⟩
  | .hbm, ⟨101, _⟩ => ⟨S1700000, .i32⟩
  | .hbm, ⟨102, _⟩ => ⟨S1700000, .i32⟩
  | .hbm, ⟨103, _⟩ => ⟨S1700000x1, .i32⟩
  | .hbm, ⟨104, _⟩ => ⟨S1700000, .f32⟩
  | .hbm, ⟨105, _⟩ => ⟨S1700000, .f32⟩
  | .hbm, ⟨106, _⟩ => ⟨S_, .i32⟩
  | .hbm, ⟨107, _⟩ => ⟨S1700000, .i32⟩
  | .hbm, ⟨108, _⟩ => ⟨S1700000, .i1⟩
  | .hbm, ⟨109, _⟩ => ⟨S_, .i32⟩
  | .hbm, ⟨110, _⟩ => ⟨S1700000, .i32⟩
  | .hbm, ⟨111, _⟩ => ⟨S1700000, .i32⟩
  | .hbm, ⟨112, _⟩ => ⟨S1700000, .i32⟩
  | .hbm, ⟨113, _⟩ => ⟨S1700000x1, .i32⟩
  | .hbm, ⟨114, _⟩ => ⟨S1700000x64, .f32⟩
  | .hbm, ⟨115, _⟩ => ⟨S1700000x1, .f32⟩
  | .hbm, ⟨116, _⟩ => ⟨S1700000x64, .f32⟩
  | .hbm, ⟨117, _⟩ => ⟨S1700000x64, .f32⟩
  | .hbm, ⟨118, _⟩ => ⟨S_, .f32⟩
  | .hbm, ⟨119, _⟩ => ⟨S100000x64, .f32⟩
  | .hbm, ⟨120, _⟩ => ⟨S1700000x1, .i32⟩
  | .hbm, ⟨121, _⟩ => ⟨S100000x64, .f32⟩
  | .hbm, ⟨122, _⟩ => ⟨S1x64, .f32⟩
  | .hbm, ⟨123, _⟩ => ⟨S100000x64, .f32⟩
  | .hbm, ⟨124, _⟩ => ⟨S100000x64, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_1 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_2 : Ref sig .tc := ⟨.hbm, 24, rfl⟩
abbrev main_call0_v0 : Ref sig .tc := ⟨.hbm, 25, rfl⟩
abbrev main_call0_v1 : Ref sig .tc := ⟨.hbm, 26, rfl⟩
abbrev main_v15 : Ref sig .tc := ⟨.hbm, 27, rfl⟩
abbrev main_c : Ref sig .tc := ⟨.hbm, 28, rfl⟩
abbrev main_v16 : Ref sig .tc := ⟨.hbm, 29, rfl⟩
abbrev main_v17 : Ref sig .tc := ⟨.hbm, 30, rfl⟩
abbrev main_c_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_c_4 : Ref sig .tc := ⟨.hbm, 37, rfl⟩
abbrev main_v23 : Ref sig .tc := ⟨.hbm, 38, rfl⟩
abbrev main_v24 : Ref sig .tc := ⟨.hbm, 39, rfl⟩
abbrev main_c_5 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_call1_cst : Ref sig .tc := ⟨.hbm, 66, rfl⟩
abbrev main_call1_v0 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_cst_9 : Ref sig .tc := ⟨.hbm, 73, rfl⟩
abbrev main_v52 : Ref sig .tc := ⟨.hbm, 74, rfl⟩
abbrev main_cst_10 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_cst_11 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_cst_12 : Ref sig .tc := ⟨.hbm, 83, rfl⟩
abbrev main_call2_v0 : Ref sig .tc := ⟨.hbm, 84, rfl⟩
abbrev main_call2_v1 : Ref sig .tc := ⟨.hbm, 85, rfl⟩
abbrev main_v59 : Ref sig .tc := ⟨.hbm, 86, rfl⟩
abbrev main_c_13 : Ref sig .tc := ⟨.hbm, 87, rfl⟩
abbrev main_v60 : Ref sig .tc := ⟨.hbm, 88, rfl⟩
abbrev main_v61 : Ref sig .tc := ⟨.hbm, 89, rfl⟩
abbrev main_c_14 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_c_15 : Ref sig .tc := ⟨.hbm, 96, rfl⟩
abbrev main_v67 : Ref sig .tc := ⟨.hbm, 97, rfl⟩
abbrev main_v68 : Ref sig .tc := ⟨.hbm, 98, rfl⟩
abbrev main_c_16 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_c_17 : Ref sig .tc := ⟨.hbm, 106, rfl⟩
abbrev main_v75 : Ref sig .tc := ⟨.hbm, 107, rfl⟩
abbrev main_v76 : Ref sig .tc := ⟨.hbm, 108, rfl⟩
abbrev main_c_18 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_v82 : Ref sig .tc := ⟨.hbm, 115, rfl⟩
abbrev main_v83 : Ref sig .tc := ⟨.hbm, 116, rfl⟩
abbrev main_v84 : Ref sig .tc := ⟨.hbm, 117, rfl⟩
abbrev main_cst_19 : Ref sig .tc := ⟨.hbm, 118, rfl⟩
abbrev main_v85 : Ref sig .tc := ⟨.hbm, 119, rfl⟩
abbrev main_v86 : Ref sig .tc := ⟨.hbm, 120, rfl⟩
abbrev main_v87 : Ref sig .tc := ⟨.hbm, 121, rfl⟩
abbrev main_v88 : Ref sig .tc := ⟨.hbm, 122, rfl⟩
abbrev main_v89 : Ref sig .tc := ⟨.hbm, 123, rfl⟩
abbrev main_v90 : Ref sig .tc := ⟨.hbm, 124, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  concatenates_S1600000_S100000_S1700000_d0 : Shape.Concatenates [S1600000, S100000] S1700000 0
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  dot_S100000x128_S128x128_S100000x128_1_0_0_1_n_n_wf : DotDims.WF S100000x128 S128x128 S100000x128 [1] [0] [0] [1] [] []
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S100000x128_S128x64_S100000x64_1_0_0_1_n_n_wf : DotDims.WF S100000x128 S128x64 S100000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1

variable [Facts₀]

def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf

class Facts : Prop extends Facts₀ where

variable [Facts]
-- ==== Proof.GcnSpec.lean ====
/-
  The two-layer graph convolution as a composition of named functions of its inputs, at any float family.

  The edge list `e` (two rows of 1600000 node numbers) is extended by one self loop per node: `src e` and `dst e`
  are its first and second row, each followed by 0, 1, …, 99999. The degree of a node counts the extended edges
  that end in it; `dinv e` is the degree to the power −1/2 where the degree is positive and 0 elsewhere; the weight of
  extended edge `k` is `norm e k = dinv (src k) · dinv (dst k)` (a negative node number is first shifted by the number
  of nodes, as array indexing does). One propagation step `aggregate` gathers the rows of a node-feature matrix at the
  edges' sources, scales row `k` by the weight of edge `k`, and adds the scaled rows into the rows named by the edges'
  destinations. A layer is a dense projection, a propagation step and a bias row added to every row; the first layer
  is followed by the positive part.

  Every function below is spelt with the host operations of the reference program, so that the reference's composed
  result is this composition by unfolding names, and the kernel program's host stretches are the same functions.
-/
import proofs.«181539_j60129542735_1_alg».proof.Proof.Gen.ReferenceIdeal

noncomputable section

namespace Cert.Gcn

open Idealize.ShloMosaic Cert.ReferenceIdeal Cert.ReferenceIdeal.Gen

variable {F : FTy → Type} [FloatOps F]

/-- The edges' destinations followed by the self loops'. -/
def dst (e : (⟨S2x1600000, .i32⟩ : BufTy).Contents (Elt F)) : (⟨S1700000, .i32⟩ : BufTy).Contents (Elt F) :=
  concatenate S1700000 0 [⟨S1600000, (shapeCast _ (extractStridedSlice S1x1600000 ![1, 0] e slices_S2x1600000_S1x1600000_1_0) shapeCasts_S1x1600000_S1600000)⟩, ⟨S100000, (iotaInDim S100000 32 0)⟩] concatenates_S1600000_S100000_S1700000_d0

/-- The edges' sources followed by the self loops'. -/
def src (e : (⟨S2x1600000, .i32⟩ : BufTy).Contents (Elt F)) : (⟨S1700000, .i32⟩ : BufTy).Contents (Elt F) :=
  concatenate S1700000 0 [⟨S1600000, (shapeCast _ (extractStridedSlice S1x1600000 ![0, 0] e slices_S2x1600000_S1x1600000_0_0) shapeCasts_S1x1600000_S1600000)⟩, ⟨S100000, (iotaInDim S100000 32 0)⟩] concatenates_S1600000_S100000_S1700000_d0

/-- A list of node numbers as gather indices: a negative number is shifted by the number of nodes, and the list
    becomes a column. -/
def asIndex (s : (⟨S1700000, .i32⟩ : BufTy).Contents (Elt F)) : (⟨S1700000x1, .i32⟩ : BufTy).Contents (Elt F) :=
  broadcastInDim S1700000x1 ![0] bcast_S1700000_S1700000x1_0 (select (cmpi .slt s (broadcastInDim S1700000 ![] bcast_S_S1700000 (constantI S_ 32 0#32))) (addi s (broadcastInDim S1700000 ![] bcast_S_S1700000 (constantI S_ 32 100000#32))) s)

/-- A list of node numbers as scatter indices: the list as a column, unshifted. -/
def asTarget (d : (⟨S1700000, .i32⟩ : BufTy).Contents (Elt F)) : (⟨S1700000x1, .i32⟩ : BufTy).Contents (Elt F) :=
  broadcastInDim S1700000x1 ![0] bcast_S1700000_S1700000x1_0 d

/-- The degree of every node: one added at each extended edge's destination. -/
def degree (d : (⟨S1700000, .i32⟩ : BufTy).Contents (Elt F)) : (⟨S100000, .f32⟩ : BufTy).Contents (Elt F) :=
  Host.scatterAdd scatter_S100000_S1700000x1_S1700000_n_0_0_1 (broadcastInDim S100000 ![] bcast_S_S100000 (constant S_ .f32 0x00000000#32)) (asTarget d) (broadcastInDim S1700000 ![] bcast_S_S1700000 (constant S_ .f32 0x3F800000#32))

/-- A degree vector to the power −1/2 where it is positive, 0 elsewhere. -/
def invSqrtOf (g : (⟨S100000, .f32⟩ : BufTy).Contents (Elt F)) : (⟨S100000, .f32⟩ : BufTy).Contents (Elt F) :=
  select (cmpf (F := F) .ogt g (broadcastInDim S100000 ![] bcast_S_S100000 (constant S_ .f32 0x00000000#32))) (Host.rsqrt g) (broadcastInDim S100000 ![] bcast_S_S100000 (id (constant S_ .f32 0x00000000#32)))

/-- The degree to the power −1/2 where it is positive, 0 elsewhere. -/
def invSqrtDegree (d : (⟨S1700000, .i32⟩ : BufTy).Contents (Elt F)) : (⟨S100000, .f32⟩ : BufTy).Contents (Elt F) :=
  invSqrtOf (degree d)

/-- The weight of every extended edge from a vector of node factors: the product of its two end nodes' factors. -/
def edgeWeightOf (q : (⟨S100000, .f32⟩ : BufTy).Contents (Elt F)) (s d : (⟨S1700000, .i32⟩ : BufTy).Contents (Elt F)) :
    (⟨S1700000, .f32⟩ : BufTy).Contents (Elt F) :=
  mulf (Host.gather gather_S100000_S1700000x1_S1700000_n_0_n_n_0_1_1 q (asIndex s)) (Host.gather gather_S100000_S1700000x1_S1700000_n_0_n_n_0_1_1 q (asIndex d))

/-- The weight of every extended edge: the product of its two end nodes' inverse square-root degrees. -/
def edgeWeight (s d : (⟨S1700000, .i32⟩ : BufTy).Contents (Elt F)) : (⟨S1700000, .f32⟩ : BufTy).Contents (Elt F) :=
  edgeWeightOf (invSqrtDegree d) s d

/-- One propagation step on 128 features: gather at the sources, scale by the edge weights, add at the destinations. -/
def aggregate128 (s d : (⟨S1700000, .i32⟩ : BufTy).Contents (Elt F)) (w : (⟨S1700000, .f32⟩ : BufTy).Contents (Elt F))
    (h : (⟨S100000x128, .f32⟩ : BufTy).Contents (Elt F)) : (⟨S100000x128, .f32⟩ : BufTy).Contents (Elt F) :=
  Host.scatterAdd scatter_S100000x128_S1700000x1_S1700000x128_1_0_0_1 (broadcastInDim S100000x128 ![] bcast_S_S100000x128 (constant S_ .f32 0x00000000#32)) (asTarget d) (mulf (Host.gather gather_S100000x128_S1700000x1_S1700000x128_1_0_n_n_0_1_1128 h (asIndex s)) (broadcastInDim S1700000x128 ![0, 1] bcast_S1700000x1_S1700000x128_0_1 (broadcastInDim S1700000x1 ![0] bcast_S1700000_S1700000x1_0 w)))

/-- One propagation step on 64 features. -/
def aggregate64 (s d : (⟨S1700000, .i32⟩ : BufTy).Contents (Elt F)) (w : (⟨S1700000, .f32⟩ : BufTy).Contents (Elt F))
    (h : (⟨S100000x64, .f32⟩ : BufTy).Contents (Elt F)) : (⟨S100000x64, .f32⟩ : BufTy).Contents (Elt F) :=
  Host.scatterAdd scatter_S100000x64_S1700000x1_S1700000x64_1_0_0_1 (broadcastInDim S100000x64 ![] bcast_S_S100000x64 (constant S_ .f32 0x00000000#32)) (asTarget d) (mulf (Host.gather gather_S100000x64_S1700000x1_S1700000x64_1_0_n_n_0_1_164 h (asIndex s)) (broadcastInDim S1700000x64 ![0, 1] bcast_S1700000x1_S1700000x64_0_1 (broadcastInDim S1700000x1 ![0] bcast_S1700000_S1700000x1_0 w)))

/-- A bias of 128 entries as a matrix whose every row is the bias. -/
def biasRows128 (b : (⟨S128, .f32⟩ : BufTy).Contents (Elt F)) : (⟨S100000x128, .f32⟩ : BufTy).Contents (Elt F) :=
  broadcastInDim S100000x128 ![0, 1] bcast_S1x128_S100000x128_0_1 (broadcastInDim S1x128 ![1] bcast_S128_S1x128_1 b)

/-- A bias of 64 entries as a matrix whose every row is the bias. -/
def biasRows64 (b : (⟨S64, .f32⟩ : BufTy).Contents (Elt F)) : (⟨S100000x64, .f32⟩ : BufTy).Contents (Elt F) :=
  broadcastInDim S100000x64 ![0, 1] bcast_S1x64_S100000x64_0_1 (broadcastInDim S1x64 ![1] bcast_S64_S1x64_1 b)

/-- The first dense projection. -/
def project1 (x : (⟨S100000x128, .f32⟩ : BufTy).Contents (Elt F)) (W : (⟨S128x128, .f32⟩ : BufTy).Contents (Elt F)) :
    (⟨S100000x128, .f32⟩ : BufTy).Contents (Elt F) :=
  Host.dotGeneral dot_S100000x128_S128x128_S100000x128_1_0_0_1_n_n none x W

/-- The second dense projection. -/
def project2 (h : (⟨S100000x128, .f32⟩ : BufTy).Contents (Elt F)) (W : (⟨S128x64, .f32⟩ : BufTy).Contents (Elt F)) :
    (⟨S100000x64, .f32⟩ : BufTy).Contents (Elt F) :=
  Host.dotGeneral dot_S100000x128_S128x64_S100000x64_1_0_0_1_n_n none h W

/-- A propagated matrix plus the bias rows, then its positive part: the end of the first layer. -/
def biasRelu (a : (⟨S100000x128, .f32⟩ : BufTy).Contents (Elt F)) (b : (⟨S128, .f32⟩ : BufTy).Contents (Elt F)) :
    (⟨S100000x128, .f32⟩ : BufTy).Contents (Elt F) :=
  maximumf (addf a (biasRows128 b)) (broadcastInDim S100000x128 ![] bcast_S_S100000x128 (constant S_ .f32 0x00000000#32))

/-- A propagated matrix plus the bias rows: the end of the second layer. -/
def biasOnly (a : (⟨S100000x64, .f32⟩ : BufTy).Contents (Elt F)) (b : (⟨S64, .f32⟩ : BufTy).Contents (Elt F)) :
    (⟨S100000x64, .f32⟩ : BufTy).Contents (Elt F) :=
  addf a (biasRows64 b)

/-- The whole network: two layers over one edge list. -/
def network (x : (⟨S100000x128, .f32⟩ : BufTy).Contents (Elt F)) (e : (⟨S2x1600000, .i32⟩ : BufTy).Contents (Elt F))
    (W1 : (⟨S128x128, .f32⟩ : BufTy).Contents (Elt F)) (b1 : (⟨S128, .f32⟩ : BufTy).Contents (Elt F))
    (W2 : (⟨S128x64, .f32⟩ : BufTy).Contents (Elt F)) (b2 : (⟨S64, .f32⟩ : BufTy).Contents (Elt F)) :
    (⟨S100000x64, .f32⟩ : BufTy).Contents (Elt F) :=
  biasOnly (aggregate64 (src e) (dst e) (edgeWeight (src e) (dst e))
    (project2 (biasRelu (aggregate128 (src e) (dst e) (edgeWeight (src e) (dst e)) (project1 x W1)) b1) W2)) b2

end Cert.Gcn

end
-- ==== Proof.RefStages.lean ====
/-
  The reference program's run, segment by segment.

  The reference's operation list is cut where it builds the extended edge list (it builds it once per layer): the
  first piece leaves the two rows of the edge list, the extended edge list and the first projection; the second leaves
  the hidden features projected a second time (degrees, edge weights, one propagation step, bias, positive part,
  projection); the third builds the extended edge list again from the two rows; the fourth leaves the result (degrees
  and edge weights again, one propagation step, bias). Each piece is a function of the contents it starts from, a
  buffer a piece does not write keeps its contents across it, and the four functions compose to the specification's
  two-layer network of the launch contents of the arguments.
-/
import proofs.«181539_j60129542735_1_alg».proof.Proof.RefOps
import proofs.«181539_j60129542735_1_alg».proof.Proof.GcnSpec
import Idealize.ShloMosaic.Lib.Pipeline.Frame

set_option maxRecDepth 16384

noncomputable section

namespace Cert.ReferenceIdeal.Stages

open Cert.ReferenceIdeal Cert.ReferenceIdeal.Gen Cert.ReferenceIdeal.ValueP
open Idealize.ShloMosaic Idealize.ShloMosaic.TcCoe Idealize.SL.Sem Idealize.ShloMosaic.StableHlo

variable {F : FTy → Type} [FloatOps F]

/-- A buffer that none of a piece's operations writes keeps its contents across the piece. -/
local macro "skip_piece" : tactic => `(tactic| (
  refine StableHlo.after_of_forall_not_mem _ _ (List.forall_iff_forall_mem.mp ?_)
  simp only [ops_a, ops_b, ops_c, ops_d, List.Forall, StableHlo.nullary_writes,
    StableHlo.unary_writes, StableHlo.binary_writes, StableHlo.ternary_writes, StableHlo.quaternary_writes,
    StableHlo.reshape_writes, StableHlo.binaryIndexed_writes, Finset.mem_singleton]
  repeat' apply And.intro
  all_goals exact StableHlo.devRef_ne_of_ne (by decide)))

variable (V : Valuation τ sig (Elt F))

/-! ## The first piece -/

theorem a_src : after ops_a V (Proc.devRef .tc main_v6) = Cert.Gcn.src (V (Proc.devRef .tc main_arg1)) := by
  simp only [ops_a]; after_results; rfl

theorem a_dst : after ops_a V (Proc.devRef .tc main_v7) = Cert.Gcn.dst (V (Proc.devRef .tc main_arg1)) := by
  simp only [ops_a]; after_results; rfl

theorem a_row0 : after ops_a V (Proc.devRef .tc main_v1)
    = shapeCast S1600000 (extractStridedSlice S1x1600000 ![0, 0] (V (Proc.devRef .tc main_arg1)) slices_S2x1600000_S1x1600000_0_0) shapeCasts_S1x1600000_S1600000 := by
  simp only [ops_a]; after_results; rfl

theorem a_row1 : after ops_a V (Proc.devRef .tc main_v3)
    = shapeCast S1600000 (extractStridedSlice S1x1600000 ![1, 0] (V (Proc.devRef .tc main_arg1)) slices_S2x1600000_S1x1600000_1_0) shapeCasts_S1x1600000_S1600000 := by
  simp only [ops_a]; after_results; rfl

theorem a_proj : after ops_a V (Proc.devRef .tc main_v4)
    = Cert.Gcn.project1 (V (Proc.devRef .tc main_arg0)) (V (Proc.devRef .tc main_arg2)) := by
  simp only [ops_a]; after_results; rfl

theorem a_arg3 : after ops_a V (Proc.devRef .tc main_arg3) = V (Proc.devRef .tc main_arg3) := by skip_piece
theorem a_arg4 : after ops_a V (Proc.devRef .tc main_arg4) = V (Proc.devRef .tc main_arg4) := by skip_piece
theorem a_arg5 : after ops_a V (Proc.devRef .tc main_arg5) = V (Proc.devRef .tc main_arg5) := by skip_piece

/-! ## The second piece -/

theorem b_hidden : after ops_b V (Proc.devRef .tc main_v48)
    = Cert.Gcn.project2 (Cert.Gcn.biasRelu (Cert.Gcn.aggregate128 (V (Proc.devRef .tc main_v6)) (V (Proc.devRef .tc main_v7))
          (Cert.Gcn.edgeWeight (V (Proc.devRef .tc main_v6)) (V (Proc.devRef .tc main_v7))) (V (Proc.devRef .tc main_v4)))
        (V (Proc.devRef .tc main_arg3))) (V (Proc.devRef .tc main_arg4)) := by
  simp only [ops_b]; after_results_simp; rfl

theorem b_row0 : after ops_b V (Proc.devRef .tc main_v1) = V (Proc.devRef .tc main_v1) := by skip_piece
theorem b_row1 : after ops_b V (Proc.devRef .tc main_v3) = V (Proc.devRef .tc main_v3) := by skip_piece
theorem b_arg5 : after ops_b V (Proc.devRef .tc main_arg5) = V (Proc.devRef .tc main_arg5) := by skip_piece

/-! ## The third piece -/

theorem c_src : after ops_c V (Proc.devRef .tc main_v50)
    = concatenate S1700000 0 [⟨S1600000, V (Proc.devRef .tc main_v1)⟩, ⟨S100000, (iotaInDim S100000 32 0)⟩] concatenates_S1600000_S100000_S1700000_d0 := by
  simp only [ops_c]; after_results

theorem c_dst : after ops_c V (Proc.devRef .tc main_v51)
    = concatenate S1700000 0 [⟨S1600000, V (Proc.devRef .tc main_v3)⟩, ⟨S100000, (iotaInDim S100000 32 0)⟩] concatenates_S1600000_S100000_S1700000_d0 := by
  simp only [ops_c]; after_results

theorem c_hidden : after ops_c V (Proc.devRef .tc main_v48) = V (Proc.devRef .tc main_v48) := by skip_piece
theorem c_arg5 : after ops_c V (Proc.devRef .tc main_arg5) = V (Proc.devRef .tc main_arg5) := by skip_piece

/-! ## The fourth piece -/

theorem d_out : after ops_d V (Proc.devRef .tc main_v90)
    = Cert.Gcn.biasOnly (Cert.Gcn.aggregate64 (V (Proc.devRef .tc main_v50)) (V (Proc.devRef .tc main_v51))
          (Cert.Gcn.edgeWeight (V (Proc.devRef .tc main_v50)) (V (Proc.devRef .tc main_v51))) (V (Proc.devRef .tc main_v48)))
        (V (Proc.devRef .tc main_arg5)) := by
  simp only [ops_d]; after_results_simp; rfl

/-! ## The whole list -/

/-- The result buffer after all the operations is the two-layer network of the contents of the arguments. -/
theorem result : after ops V (Proc.devRef .tc main_v90)
    = Cert.Gcn.network (V (Proc.devRef .tc main_arg0)) (V (Proc.devRef .tc main_arg1)) (V (Proc.devRef .tc main_arg2))
        (V (Proc.devRef .tc main_arg3)) (V (Proc.devRef .tc main_arg4)) (V (Proc.devRef .tc main_arg5)) := by
  rw [ops_cut, StableHlo.after_append, StableHlo.after_append, StableHlo.after_append]
  rw [d_out, c_src, c_dst, c_hidden, c_arg5, b_hidden, b_row0, b_row1, b_arg5, a_src, a_dst, a_proj, a_row0, a_row1,
    a_arg3, a_arg4, a_arg5]
  rfl

/-! ## The run -/

set_option maxRecDepth 8192 in
set_option maxHeartbeats 47600000 in
/-- On every device, from any memory with zero counters: every weakly fair execution of the reference program
    terminates with its result at the two-layer network of the arguments and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v90)
        = Cert.Gcn.network (m ((c.tc : Thread nD τ).loc main_arg0)) (m ((c.tc : Thread nD τ).loc main_arg1))
            (m ((c.tc : Thread nD τ).loc main_arg2)) (m ((c.tc : Thread nD τ).loc main_arg3))
            (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c => ⟨(h c main_v90).trans (result _),
      (h c main_arg0).trans (by after_results_simp <;> rfl),
      (h c main_arg1).trans (by after_results_simp <;> rfl),
      (h c main_arg2).trans (by after_results_simp <;> rfl),
      (h c main_arg3).trans (by after_results_simp <;> rfl),
      (h c main_arg4).trans (by after_results_simp <;> rfl),
      (h c main_arg5).trans (by after_results_simp <;> rfl)⟩)
    (run_seq scopedRefs_eq scopedSems_eq defs main (fun _ => ops) main_eq (fun _ => ops_sub) m ρ)

end Cert.ReferenceIdeal.Stages

end
-- ==== Proof.Boundary.lean ====
/-
  What the kernel program's buffers hold at each boundary between its host stretches and its four pallas_calls.

  The program computes the extended edge list (`src`, `dst`) and the edge weights once, before the first
  pallas_call; the two propagation steps and the two reshaped bias rows are host stretches between the calls. A buffer
  that a stretch or a call does not write keeps its contents across it, so the edge list, the weights and the argument
  arrays are read at every later boundary as they were first computed or launched; a buffer a stretch does write holds
  that stretch's operations applied to the contents before it, which are the named functions of the specification.
-/
import proofs.«181539_j60129542735_1_alg».proof.Proof.Gen.KernelIdeal.Frame
import proofs.«181539_j60129542735_1_alg».proof.Proof.GcnSpec
import Idealize.ShloMosaic.Lib.StableHlo.Run

set_option maxRecDepth 16384

noncomputable section

namespace Cert.KernelIdeal.Boundary

open Idealize.ShloMosaic Idealize.ShloMosaic.TcCoe Idealize.SL.Sem Idealize.ShloMosaic.StableHlo
open Cert.KernelIdeal Cert.KernelIdeal.Gen

variable {F : FTy → Type} [FloatOps F]

/-- A buffer that none of a stretch's operations writes keeps its contents across the stretch. -/
local macro "skip_stretch" : tactic => `(tactic| (
  refine StableHlo.after_of_forall_not_mem _ _ (List.forall_iff_forall_mem.mp ?_)
  simp only [hostOps0, hostOps0_1, hostOps0_2, hostOps1, hostOps3, List.Forall, StableHlo.nullary_writes,
    StableHlo.unary_writes, StableHlo.binary_writes, StableHlo.ternary_writes, StableHlo.quaternary_writes,
    StableHlo.reshape_writes, StableHlo.binaryIndexed_writes, Finset.mem_singleton]
  repeat' apply And.intro
  all_goals exact StableHlo.devRef_ne_of_ne (by decide)))

/-! ## The host stretches as functions of the contents they start from -/

section Stretches
variable (V : Valuation τ sig (Elt F))

/-- The first stretch builds the extended edge list from the edge-list argument. -/
theorem first_src : StableHlo.after hostOps0 V (Proc.devRef .tc main_v5) = Cert.Gcn.src (V (Proc.devRef .tc main_arg1)) := by
  simp only [hostOps0]; after_results; rfl

theorem first_dst : StableHlo.after hostOps0 V (Proc.devRef .tc main_v6) = Cert.Gcn.dst (V (Proc.devRef .tc main_arg1)) := by
  simp only [hostOps0]; after_results; rfl

set_option maxHeartbeats 4000000 in
/-- The first stretch and the selection after it leave every node's inverse square-root degree. -/
theorem first_invSqrt : StableHlo.after hostOps0_1 (StableHlo.after hostOps0 V) (Proc.devRef .tc main_v14)
    = Cert.Gcn.invSqrtDegree (Cert.Gcn.dst (V (Proc.devRef .tc main_arg1))) := by
  simp only [hostOps0, hostOps0_1]; after_results; rfl

/-- The stretch before the first call multiplies the two end nodes' factors along every extended edge. -/
theorem weight_stretch : StableHlo.after hostOps0_2 V (Proc.devRef .tc main_v29)
    = Cert.Gcn.edgeWeightOf (V (Proc.devRef .tc main_v14)) (V (Proc.devRef .tc main_v5)) (V (Proc.devRef .tc main_v6)) := by
  simp only [hostOps0_2]; after_results_simp; rfl

/-- The stretch after the first call is one propagation step on 128 features … -/
theorem prop128_stretch : StableHlo.after hostOps1 V (Proc.devRef .tc main_v43)
    = Cert.Gcn.aggregate128 (V (Proc.devRef .tc main_v5)) (V (Proc.devRef .tc main_v6)) (V (Proc.devRef .tc main_v29))
        (V (Proc.devRef .tc main_v30)) := by
  simp only [hostOps1]; after_results_simp; rfl

/-- … and the first bias as a 1×128 matrix. -/
theorem bias128_stretch : StableHlo.after hostOps1 V (Proc.devRef .tc main_v44)
    = shapeCast S1x128 (V (Proc.devRef .tc main_arg3)) shapeCasts_S128_S1x128 := by
  simp only [hostOps1]; after_results; rfl

/-- The stretch after the third call is one propagation step on 64 features … -/
theorem prop64_stretch : StableHlo.after hostOps3 V (Proc.devRef .tc main_v59)
    = Cert.Gcn.aggregate64 (V (Proc.devRef .tc main_v5)) (V (Proc.devRef .tc main_v6)) (V (Proc.devRef .tc main_v29))
        (V (Proc.devRef .tc main_v46)) := by
  simp only [hostOps3]; after_results_simp; rfl

/-- … and the second bias as a 1×64 matrix. -/
theorem bias64_stretch : StableHlo.after hostOps3 V (Proc.devRef .tc main_v60)
    = shapeCast S1x64 (V (Proc.devRef .tc main_arg5)) shapeCasts_S64_S1x64 := by
  simp only [hostOps3]; after_results; rfl

end Stretches

variable (m : (ℓ : Loc nD τ sig) → Buf (Elt F) ℓ) (ρ : Dev nD → PrngReg)

/-- The launch contents of the edge list. -/
abbrev edges (c : Dev nD) : (⟨S2x1600000, .i32⟩ : BufTy).Contents (Elt F) := m ((c : Thread nD τ).loc main_arg1)

/-! ## Before the first pallas_call -/

theorem W3_src (c : Dev nD) : W3 m ρ c (Proc.devRef .tc main_v5) = Cert.Gcn.src (edges m c) :=
  calc W3 m ρ c (Proc.devRef .tc main_v5)
    _ = W2 m ρ c (Proc.devRef .tc main_v5) := by skip_stretch
    _ = W1 m ρ c (Proc.devRef .tc main_v5) := by skip_stretch
    _ = _ := first_src (W0 m ρ c)

theorem W3_dst (c : Dev nD) : W3 m ρ c (Proc.devRef .tc main_v6) = Cert.Gcn.dst (edges m c) :=
  calc W3 m ρ c (Proc.devRef .tc main_v6)
    _ = W2 m ρ c (Proc.devRef .tc main_v6) := by skip_stretch
    _ = W1 m ρ c (Proc.devRef .tc main_v6) := by skip_stretch
    _ = _ := first_dst (W0 m ρ c)

theorem W3_weight (c : Dev nD) :
    W3 m ρ c (Proc.devRef .tc main_v29) = Cert.Gcn.edgeWeight (Cert.Gcn.src (edges m c)) (Cert.Gcn.dst (edges m c)) := by
  have h5 : W2 m ρ c (Proc.devRef .tc main_v5) = Cert.Gcn.src (edges m c) :=
    (show W2 m ρ c (Proc.devRef .tc main_v5) = W1 m ρ c (Proc.devRef .tc main_v5) by skip_stretch).trans (first_src (W0 m ρ c))
  have h6 : W2 m ρ c (Proc.devRef .tc main_v6) = Cert.Gcn.dst (edges m c) :=
    (show W2 m ρ c (Proc.devRef .tc main_v6) = W1 m ρ c (Proc.devRef .tc main_v6) by skip_stretch).trans (first_dst (W0 m ρ c))
  have h14 : W2 m ρ c (Proc.devRef .tc main_v14) = Cert.Gcn.invSqrtDegree (Cert.Gcn.dst (edges m c)) := first_invSqrt (W0 m ρ c)
  refine (weight_stretch (W2 m ρ c)).trans ?_
  rw [h5, h6, h14]
  rfl

theorem W3_arg0 (c : Dev nD) : W3 m ρ c (Proc.devRef .tc main_arg0) = m ((c : Thread nD τ).loc main_arg0) :=
  calc W3 m ρ c (Proc.devRef .tc main_arg0)
    _ = W2 m ρ c (Proc.devRef .tc main_arg0) := by skip_stretch
    _ = W1 m ρ c (Proc.devRef .tc main_arg0) := by skip_stretch
    _ = W0 m ρ c (Proc.devRef .tc main_arg0) := by skip_stretch
    _ = _ := rfl

theorem W3_arg2 (c : Dev nD) : W3 m ρ c (Proc.devRef .tc main_arg2) = m ((c : Thread nD τ).loc main_arg2) :=
  calc W3 m ρ c (Proc.devRef .tc main_arg2)
    _ = W2 m ρ c (Proc.devRef .tc main_arg2) := by skip_stretch
    _ = W1 m ρ c (Proc.devRef .tc main_arg2) := by skip_stretch
    _ = W0 m ρ c (Proc.devRef .tc main_arg2) := by skip_stretch
    _ = _ := rfl

theorem W3_arg3 (c : Dev nD) : W3 m ρ c (Proc.devRef .tc main_arg3) = m ((c : Thread nD τ).loc main_arg3) :=
  calc W3 m ρ c (Proc.devRef .tc main_arg3)
    _ = W2 m ρ c (Proc.devRef .tc main_arg3) := by skip_stretch
    _ = W1 m ρ c (Proc.devRef .tc main_arg3) := by skip_stretch
    _ = W0 m ρ c (Proc.devRef .tc main_arg3) := by skip_stretch
    _ = _ := rfl

theorem W3_arg4 (c : Dev nD) : W3 m ρ c (Proc.devRef .tc main_arg4) = m ((c : Thread nD τ).loc main_arg4) :=
  calc W3 m ρ c (Proc.devRef .tc main_arg4)
    _ = W2 m ρ c (Proc.devRef .tc main_arg4) := by skip_stretch
    _ = W1 m ρ c (Proc.devRef .tc main_arg4) := by skip_stretch
    _ = W0 m ρ c (Proc.devRef .tc main_arg4) := by skip_stretch
    _ = _ := rfl

theorem W3_arg5 (c : Dev nD) : W3 m ρ c (Proc.devRef .tc main_arg5) = m ((c : Thread nD τ).loc main_arg5) :=
  calc W3 m ρ c (Proc.devRef .tc main_arg5)
    _ = W2 m ρ c (Proc.devRef .tc main_arg5) := by skip_stretch
    _ = W1 m ρ c (Proc.devRef .tc main_arg5) := by skip_stretch
    _ = W0 m ρ c (Proc.devRef .tc main_arg5) := by skip_stretch
    _ = _ := rfl

/-! ## Across the first pallas_call (it writes main_v30 only) and the stretch after it -/

theorem W5_src (c : Dev nD) : W5 m ρ c (Proc.devRef .tc main_v5) = Cert.Gcn.src (edges m c) :=
  calc W5 m ρ c (Proc.devRef .tc main_v5)
    _ = W4 m ρ c (Proc.devRef .tc main_v5) := by skip_stretch
    _ = W3 m ρ c (Proc.devRef .tc main_v5) := W4_of_ne m ρ c main_v5 (by decide)
    _ = _ := W3_src m ρ c

theorem W5_dst (c : Dev nD) : W5 m ρ c (Proc.devRef .tc main_v6) = Cert.Gcn.dst (edges m c) :=
  calc W5 m ρ c (Proc.devRef .tc main_v6)
    _ = W4 m ρ c (Proc.devRef .tc main_v6) := by skip_stretch
    _ = W3 m ρ c (Proc.devRef .tc main_v6) := W4_of_ne m ρ c main_v6 (by decide)
    _ = _ := W3_dst m ρ c

theorem W5_weight (c : Dev nD) :
    W5 m ρ c (Proc.devRef .tc main_v29) = Cert.Gcn.edgeWeight (Cert.Gcn.src (edges m c)) (Cert.Gcn.dst (edges m c)) :=
  calc W5 m ρ c (Proc.devRef .tc main_v29)
    _ = W4 m ρ c (Proc.devRef .tc main_v29) := by skip_stretch
    _ = W3 m ρ c (Proc.devRef .tc main_v29) := W4_of_ne m ρ c main_v29 (by decide)
    _ = _ := W3_weight m ρ c

theorem W5_arg4 (c : Dev nD) : W5 m ρ c (Proc.devRef .tc main_arg4) = m ((c : Thread nD τ).loc main_arg4) :=
  calc W5 m ρ c (Proc.devRef .tc main_arg4)
    _ = W4 m ρ c (Proc.devRef .tc main_arg4) := by skip_stretch
    _ = W3 m ρ c (Proc.devRef .tc main_arg4) := W4_of_ne m ρ c main_arg4 (by decide)
    _ = _ := W3_arg4 m ρ c

theorem W5_arg5 (c : Dev nD) : W5 m ρ c (Proc.devRef .tc main_arg5) = m ((c : Thread nD τ).loc main_arg5) :=
  calc W5 m ρ c (Proc.devRef .tc main_arg5)
    _ = W4 m ρ c (Proc.devRef .tc main_arg5) := by skip_stretch
    _ = W3 m ρ c (Proc.devRef .tc main_arg5) := W4_of_ne m ρ c main_arg5 (by decide)
    _ = _ := W3_arg5 m ρ c

/-- The propagated 128-feature matrix the second call reads: one propagation step of what the first call wrote. -/
theorem W5_prop (c : Dev nD) : W5 m ρ c (Proc.devRef .tc main_v43)
    = Cert.Gcn.aggregate128 (Cert.Gcn.src (edges m c)) (Cert.Gcn.dst (edges m c))
        (Cert.Gcn.edgeWeight (Cert.Gcn.src (edges m c)) (Cert.Gcn.dst (edges m c))) (W4 m ρ c (Proc.devRef .tc main_v30)) := by
  refine (prop128_stretch (W4 m ρ c)).trans ?_
  rw [(W4_of_ne m ρ c main_v5 (by decide)).trans (W3_src m ρ c), (W4_of_ne m ρ c main_v6 (by decide)).trans (W3_dst m ρ c),
    (W4_of_ne m ρ c main_v29 (by decide)).trans (W3_weight m ρ c)]

/-- The bias row the second call reads: the first bias argument as a 1×128 matrix. -/
theorem W5_bias (c : Dev nD) : W5 m ρ c (Proc.devRef .tc main_v44)
    = shapeCast S1x128 (m ((c : Thread nD τ).loc main_arg3)) shapeCasts_S128_S1x128 := by
  refine (bias128_stretch (W4 m ρ c)).trans ?_
  rw [(W4_of_ne m ρ c main_arg3 (by decide)).trans (W3_arg3 m ρ c)]

/-! ## Across the second and third pallas_calls (they write main_v45 and main_v46) and the stretch after them -/

theorem W7_src (c : Dev nD) : W7 m ρ c (Proc.devRef .tc main_v5) = Cert.Gcn.src (edges m c) :=
  calc W7 m ρ c (Proc.devRef .tc main_v5)
    _ = W6 m ρ c (Proc.devRef .tc main_v5) := W7_of_ne m ρ c main_v5 (by decide)
    _ = W5 m ρ c (Proc.devRef .tc main_v5) := W6_of_ne m ρ c main_v5 (by decide)
    _ = _ := W5_src m ρ c

theorem W7_dst (c : Dev nD) : W7 m ρ c (Proc.devRef .tc main_v6) = Cert.Gcn.dst (edges m c) :=
  calc W7 m ρ c (Proc.devRef .tc main_v6)
    _ = W6 m ρ c (Proc.devRef .tc main_v6) := W7_of_ne m ρ c main_v6 (by decide)
    _ = W5 m ρ c (Proc.devRef .tc main_v6) := W6_of_ne m ρ c main_v6 (by decide)
    _ = _ := W5_dst m ρ c

theorem W7_weight (c : Dev nD) :
    W7 m ρ c (Proc.devRef .tc main_v29) = Cert.Gcn.edgeWeight (Cert.Gcn.src (edges m c)) (Cert.Gcn.dst (edges m c)) :=
  calc W7 m ρ c (Proc.devRef .tc main_v29)
    _ = W6 m ρ c (Proc.devRef .tc main_v29) := W7_of_ne m ρ c main_v29 (by decide)
    _ = W5 m ρ c (Proc.devRef .tc main_v29) := W6_of_ne m ρ c main_v29 (by decide)
    _ = _ := W5_weight m ρ c

theorem W6_arg4 (c : Dev nD) : W6 m ρ c (Proc.devRef .tc main_arg4) = m ((c : Thread nD τ).loc main_arg4) :=
  (W6_of_ne m ρ c main_arg4 (by decide)).trans (W5_arg4 m ρ c)

theorem W7_arg5 (c : Dev nD) : W7 m ρ c (Proc.devRef .tc main_arg5) = m ((c : Thread nD τ).loc main_arg5) :=
  calc W7 m ρ c (Proc.devRef .tc main_arg5)
    _ = W6 m ρ c (Proc.devRef .tc main_arg5) := W7_of_ne m ρ c main_arg5 (by decide)
    _ = W5 m ρ c (Proc.devRef .tc main_arg5) := W6_of_ne m ρ c main_arg5 (by decide)
    _ = _ := W5_arg5 m ρ c

/-- The propagated 64-feature matrix the fourth call reads: one propagation step of what the third call wrote. -/
theorem W8_prop (c : Dev nD) : W8 m ρ c (Proc.devRef .tc main_v59)
    = Cert.Gcn.aggregate64 (Cert.Gcn.src (edges m c)) (Cert.Gcn.dst (edges m c))
        (Cert.Gcn.edgeWeight (Cert.Gcn.src (edges m c)) (Cert.Gcn.dst (edges m c))) (W7 m ρ c (Proc.devRef .tc main_v46)) := by
  refine (prop64_stretch (W7 m ρ c)).trans ?_
  rw [W7_src m ρ c, W7_dst m ρ c, W7_weight m ρ c]

/-- The bias row the fourth call reads: the second bias argument as a 1×64 matrix. -/
theorem W8_bias (c : Dev nD) : W8 m ρ c (Proc.devRef .tc main_v60)
    = shapeCast S1x64 (m ((c : Thread nD τ).loc main_arg5)) shapeCasts_S64_S1x64 := by
  refine (bias64_stretch (W7 m ρ c)).trans ?_
  rw [W7_arg5 m ρ c]

end Cert.KernelIdeal.Boundary

end
-- ==== Proof.LibRowBlock.lean ====
/-
  Row blocks of a matrix under operations that treat rows independently, at the exact instance.

  A matrix `a` with `B` rows IS THE `t`-TH ROW BLOCK of a matrix `A` with the same columns when
  `a (p, j) = A (B·t + p, j)` for every row `p` of the block. Every operation that computes row `r` of its
  result from rows `r` of its operands alone sends row blocks to row blocks: a column slice, a concatenation
  along the columns, a pointwise operation, a constant splat, a bias row added to every row, and a product with a
  matrix on the right (row `r` of `L·R` is `∑ₖ L(r,k)·R(k,·)`). The lemmas below say so, one per operation,
  with the whole-matrix side spelt as a host program spells it and the block side as a kernel body does.
-/
import Idealize.ShloMosaic.Lib.ValueIdx
import Idealize.ShloMosaic.Lib.ValueLayout
import Idealize.ShloMosaic.Lib.Pipeline.Value
import Idealize.ShloMosaic.PureOps.Ideal.Laws

noncomputable section

namespace Cert.RowBlock

open Idealize.ShloMosaic Idealize.ShloMosaic.ValueIdx

/-- `a` is rows `B·t, …, B·t + B − 1` of `A`. -/
def IsRows {α : Type} {N n : Nat} (B t : Nat) (A : (⟨2, ![N, n]⟩ : Shape).Idx → α) (a : (⟨2, ![B, n]⟩ : Shape).Idx → α) : Prop :=
  ∀ (p : Fin B) (j : Fin n) (r : Fin N), r.val = B * t + p.val → a (ix2 p j) = A (ix2 r j)

namespace IsRows

variable {α : Type} {N n B t : Nat}

/-! ## Layout -/

/-- Columns `o, …, o + m − 1` of a row block are the row block of those columns. -/
theorem slice {A : (⟨2, ![N, n]⟩ : Shape).Idx → α} {a : (⟨2, ![B, n]⟩ : Shape).Idx → α} (H : IsRows B t A a) (o m : Nat)
    (hA : (⟨2, ![N, n]⟩ : Shape).Slices ![0, o] ⟨2, ![N, m]⟩) (ha : (⟨2, ![B, n]⟩ : Shape).Slices ![0, o] ⟨2, ![B, m]⟩) :
    IsRows B t (extractStridedSlice ⟨2, ![N, m]⟩ ![0, o] A hA) (extractStridedSlice ⟨2, ![B, m]⟩ ![0, o] a ha) := by
  intro p j r hr
  rw [slice2_axis1_eq, slice2_axis1_eq]
  exact H p _ r hr

/-- A concatenation along the columns read at column `j`: piece `k`, whose columns start at `pre`, at column `j − pre`. -/
theorem concat_cols_apply {R n m : Nat} (xs : List ((s : Shape) × (s.Idx → α)))
    (h : Shape.Concatenates (xs.map (·.1)) ⟨2, ![R, n]⟩ 1)
    (k : Nat) (hk : k < xs.length) (x : (⟨2, ![R, m]⟩ : Shape).Idx → α) (hxk : xs[k] = ⟨⟨2, ![R, m]⟩, x⟩) (pre : Nat)
    (hpre : (((xs.take k).map (·.1)).map fun s => if h : s.rank = (⟨2, ![R, n]⟩ : Shape).rank
        then s.size ((1 : Fin (⟨2, ![R, n]⟩ : Shape).rank).cast h.symm) else 0).sum = pre)
    (r : Fin R) (j : Fin n) (j' : Fin m) (hj : pre + j'.val = j.val) :
    concatenate ⟨2, ![R, n]⟩ 1 xs h (ix2 r j) = x (ix2 r j') :=
  concatenate_apply_piece 1 xs h (ix2 r j) k hk _ x hxk rfl pre hpre (ix2 r j')
    (fun b hb => by
      match b with
      | ⟨0, _⟩ => rfl
      | ⟨1, _⟩ => exact absurd rfl hb) hj

/-- Two row blocks side by side are the row block of the two matrices side by side. -/
theorem concat2 {n₁ n₂ : Nat} {A₁ : (⟨2, ![N, n₁]⟩ : Shape).Idx → α} {a₁ : (⟨2, ![B, n₁]⟩ : Shape).Idx → α}
    {A₂ : (⟨2, ![N, n₂]⟩ : Shape).Idx → α} {a₂ : (⟨2, ![B, n₂]⟩ : Shape).Idx → α}
    (H₁ : IsRows B t A₁ a₁) (H₂ : IsRows B t A₂ a₂) (hn : n = n₁ + n₂)
    (hA : Shape.Concatenates [(⟨2, ![N, n₁]⟩ : Shape), ⟨2, ![N, n₂]⟩] ⟨2, ![N, n]⟩ 1)
    (ha : Shape.Concatenates [(⟨2, ![B, n₁]⟩ : Shape), ⟨2, ![B, n₂]⟩] ⟨2, ![B, n]⟩ 1) :
    IsRows B t (concatenate ⟨2, ![N, n]⟩ 1 [⟨⟨2, ![N, n₁]⟩, A₁⟩, ⟨⟨2, ![N, n₂]⟩, A₂⟩] hA)
      (concatenate ⟨2, ![B, n]⟩ 1 [⟨⟨2, ![B, n₁]⟩, a₁⟩, ⟨⟨2, ![B, n₂]⟩, a₂⟩] ha) := by
  intro p j r hr
  by_cases hj : j.val < n₁
  · rw [concat_cols_apply [⟨⟨2, ![N, n₁]⟩, A₁⟩, ⟨⟨2, ![N, n₂]⟩, A₂⟩] hA 0 (by simp) A₁ rfl 0 rfl r j ⟨j.val, hj⟩ (Nat.zero_add _),
      concat_cols_apply [⟨⟨2, ![B, n₁]⟩, a₁⟩, ⟨⟨2, ![B, n₂]⟩, a₂⟩] ha 0 (by simp) a₁ rfl 0 rfl p j ⟨j.val, hj⟩ (Nat.zero_add _)]
    exact H₁ p _ r hr
  · have hj2 : j.val - n₁ < n₂ := by have := j.isLt; omega
    have hj3 : n₁ + (j.val - n₁) = j.val := by omega
    rw [concat_cols_apply [⟨⟨2, ![N, n₁]⟩, A₁⟩, ⟨⟨2, ![N, n₂]⟩, A₂⟩] hA 1 (by simp) A₂ rfl n₁ rfl r j ⟨j.val - n₁, hj2⟩ hj3,
      concat_cols_apply [⟨⟨2, ![B, n₁]⟩, a₁⟩, ⟨⟨2, ![B, n₂]⟩, a₂⟩] ha 1 (by simp) a₂ rfl n₁ rfl p j ⟨j.val - n₁, hj2⟩ hj3]
    exact H₂ p _ r hr

/-- Six row blocks side by side are the row block of the six matrices side by side. -/
theorem concat6 {n₁ n₂ n₃ n₄ n₅ n₆ : Nat}
    {A₁ : (⟨2, ![N, n₁]⟩ : Shape).Idx → α} {a₁ : (⟨2, ![B, n₁]⟩ : Shape).Idx → α}
    {A₂ : (⟨2, ![N, n₂]⟩ : Shape).Idx → α} {a₂ : (⟨2, ![B, n₂]⟩ : Shape).Idx → α}
    {A₃ : (⟨2, ![N, n₃]⟩ : Shape).Idx → α} {a₃ : (⟨2, ![B, n₃]⟩ : Shape).Idx → α}
    {A₄ : (⟨2, ![N, n₄]⟩ : Shape).Idx → α} {a₄ : (⟨2, ![B, n₄]⟩ : Shape).Idx → α}
    {A₅ : (⟨2, ![N, n₅]⟩ : Shape).Idx → α} {a₅ : (⟨2, ![B, n₅]⟩ : Shape).Idx → α}
    {A₆ : (⟨2, ![N, n₆]⟩ : Shape).Idx → α} {a₆ : (⟨2, ![B, n₆]⟩ : Shape).Idx → α}
    (H₁ : IsRows B t A₁ a₁) (H₂ : IsRows B t A₂ a₂) (H₃ : IsRows B t A₃ a₃) (H₄ : IsRows B t A₄ a₄)
    (H₅ : IsRows B t A₅ a₅) (H₆ : IsRows B t A₆ a₆) (hn : n = n₁ + n₂ + n₃ + n₄ + n₅ + n₆)
    (hA : Shape.Concatenates [(⟨2, ![N, n₁]⟩ : Shape), ⟨2, ![N, n₂]⟩, ⟨2, ![N, n₃]⟩, ⟨2, ![N, n₄]⟩, ⟨2, ![N, n₅]⟩, ⟨2, ![N, n₆]⟩] ⟨2, ![N, n]⟩ 1)
    (ha : Shape.Concatenates [(⟨2, ![B, n₁]⟩ : Shape), ⟨2, ![B, n₂]⟩, ⟨2, ![B, n₃]⟩, ⟨2, ![B, n₄]⟩, ⟨2, ![B, n₅]⟩, ⟨2, ![B, n₆]⟩] ⟨2, ![B, n]⟩ 1) :
    IsRows B t
      (concatenate ⟨2, ![N, n]⟩ 1 [⟨⟨2, ![N, n₁]⟩, A₁⟩, ⟨⟨2, ![N, n₂]⟩, A₂⟩, ⟨⟨2, ![N, n₃]⟩, A₃⟩, ⟨⟨2, ![N, n₄]⟩, A₄⟩, ⟨⟨2, ![N, n₅]⟩, A₅⟩, ⟨⟨2, ![N, n₆]⟩, A₆⟩] hA)
      (concatenate ⟨2, ![B, n]⟩ 1 [⟨⟨2, ![B, n₁]⟩, a₁⟩, ⟨⟨2, ![B, n₂]⟩, a₂⟩, ⟨⟨2, ![B, n₃]⟩, a₃⟩, ⟨⟨2, ![B, n₄]⟩, a₄⟩, ⟨⟨2, ![B, n₅]⟩, a₅⟩, ⟨⟨2, ![B, n₆]⟩, a₆⟩] ha) := by
  intro p j r hr
  have hjn := j.isLt
  by_cases c₁ : j.val < n₁
  · rw [concat_cols_apply [⟨⟨2, ![N, n₁]⟩, A₁⟩, ⟨⟨2, ![N, n₂]⟩, A₂⟩, ⟨⟨2, ![N, n₃]⟩, A₃⟩, ⟨⟨2, ![N, n₄]⟩, A₄⟩, ⟨⟨2, ![N, n₅]⟩, A₅⟩, ⟨⟨2, ![N, n₆]⟩, A₆⟩] hA 0 (by simp) A₁ rfl 0 rfl r j ⟨j.val, c₁⟩ (Nat.zero_add _),
      concat_cols_apply [⟨⟨2, ![B, n₁]⟩, a₁⟩, ⟨⟨2, ![B, n₂]⟩, a₂⟩, ⟨⟨2, ![B, n₃]⟩, a₃⟩, ⟨⟨2, ![B, n₄]⟩, a₄⟩, ⟨⟨2, ![B, n₅]⟩, a₅⟩, ⟨⟨2, ![B, n₆]⟩, a₆⟩] ha 0 (by simp) a₁ rfl 0 rfl p j ⟨j.val, c₁⟩ (Nat.zero_add _)]
    exact H₁ p _ r hr
  by_cases c₂ : j.val < n₁ + n₂
  · have hb : j.val - n₁ < n₂ := by omega
    have he : n₁ + (j.val - n₁) = j.val := by omega
    rw [concat_cols_apply [⟨⟨2, ![N, n₁]⟩, A₁⟩, ⟨⟨2, ![N, n₂]⟩, A₂⟩, ⟨⟨2, ![N, n₃]⟩, A₃⟩, ⟨⟨2, ![N, n₄]⟩, A₄⟩, ⟨⟨2, ![N, n₅]⟩, A₅⟩, ⟨⟨2, ![N, n₆]⟩, A₆⟩] hA 1 (by simp) A₂ rfl n₁ rfl r j ⟨j.val - n₁, hb⟩ he,
      concat_cols_apply [⟨⟨2, ![B, n₁]⟩, a₁⟩, ⟨⟨2, ![B, n₂]⟩, a₂⟩, ⟨⟨2, ![B, n₃]⟩, a₃⟩, ⟨⟨2, ![B, n₄]⟩, a₄⟩, ⟨⟨2, ![B, n₅]⟩, a₅⟩, ⟨⟨2, ![B, n₆]⟩, a₆⟩] ha 1 (by simp) a₂ rfl n₁ rfl p j ⟨j.val - n₁, hb⟩ he]
    exact H₂ p _ r hr
  by_cases c₃ : j.val < n₁ + n₂ + n₃
  · have hb : j.val - (n₁ + n₂) < n₃ := by omega
    have he : n₁ + n₂ + (j.val - (n₁ + n₂)) = j.val := by omega
    rw [concat_cols_apply [⟨⟨2, ![N, n₁]⟩, A₁⟩, ⟨⟨2, ![N, n₂]⟩, A₂⟩, ⟨⟨2, ![N, n₃]⟩, A₃⟩, ⟨⟨2, ![N, n₄]⟩, A₄⟩, ⟨⟨2, ![N, n₅]⟩, A₅⟩, ⟨⟨2, ![N, n₆]⟩, A₆⟩] hA 2 (by simp) A₃ rfl (n₁ + n₂) (by simp) r j ⟨j.val - (n₁ + n₂), hb⟩ he,
      concat_cols_apply [⟨⟨2, ![B, n₁]⟩, a₁⟩, ⟨⟨2, ![B, n₂]⟩, a₂⟩, ⟨⟨2, ![B, n₃]⟩, a₃⟩, ⟨⟨2, ![B, n₄]⟩, a₄⟩, ⟨⟨2, ![B, n₅]⟩, a₅⟩, ⟨⟨2, ![B, n₆]⟩, a₆⟩] ha 2 (by simp) a₃ rfl (n₁ + n₂) (by simp) p j ⟨j.val - (n₁ + n₂), hb⟩ he]
    exact H₃ p _ r hr
  by_cases c₄ : j.val < n₁ + n₂ + n₃ + n₄
  · have hb : j.val - (n₁ + n₂ + n₃) < n₄ := by omega
    have he : n₁ + n₂ + n₃ + (j.val - (n₁ + n₂ + n₃)) = j.val := by omega
    rw [concat_cols_apply [⟨⟨2, ![N, n₁]⟩, A₁⟩, ⟨⟨2, ![N, n₂]⟩, A₂⟩, ⟨⟨2, ![N, n₃]⟩, A₃⟩, ⟨⟨2, ![N, n₄]⟩, A₄⟩, ⟨⟨2, ![N, n₅]⟩, A₅⟩, ⟨⟨2, ![N, n₆]⟩, A₆⟩] hA 3 (by simp) A₄ rfl (n₁ + n₂ + n₃) (by simp; omega) r j ⟨j.val - (n₁ + n₂ + n₃), hb⟩ he,
      concat_cols_apply [⟨⟨2, ![B, n₁]⟩, a₁⟩, ⟨⟨2, ![B, n₂]⟩, a₂⟩, ⟨⟨2, ![B, n₃]⟩, a₃⟩, ⟨⟨2, ![B, n₄]⟩, a₄⟩, ⟨⟨2, ![B, n₅]⟩, a₅⟩, ⟨⟨2, ![B, n₆]⟩, a₆⟩] ha 3 (by simp) a₄ rfl (n₁ + n₂ + n₃) (by simp; omega) p j ⟨j.val - (n₁ + n₂ + n₃), hb⟩ he]
    exact H₄ p _ r hr
  by_cases c₅ : j.val < n₁ + n₂ + n₃ + n₄ + n₅
  · have hb : j.val - (n₁ + n₂ + n₃ + n₄) < n₅ := by omega
    have he : n₁ + n₂ + n₃ + n₄ + (j.val - (n₁ + n₂ + n₃ + n₄)) = j.val := by omega
    rw [concat_cols_apply [⟨⟨2, ![N, n₁]⟩, A₁⟩, ⟨⟨2, ![N, n₂]⟩, A₂⟩, ⟨⟨2, ![N, n₃]⟩, A₃⟩, ⟨⟨2, ![N, n₄]⟩, A₄⟩, ⟨⟨2, ![N, n₅]⟩, A₅⟩, ⟨⟨2, ![N, n₆]⟩, A₆⟩] hA 4 (by simp) A₅ rfl (n₁ + n₂ + n₃ + n₄) (by simp; omega) r j ⟨j.val - (n₁ + n₂ + n₃ + n₄), hb⟩ he,
      concat_cols_apply [⟨⟨2, ![B, n₁]⟩, a₁⟩, ⟨⟨2, ![B, n₂]⟩, a₂⟩, ⟨⟨2, ![B, n₃]⟩, a₃⟩, ⟨⟨2, ![B, n₄]⟩, a₄⟩, ⟨⟨2, ![B, n₅]⟩, a₅⟩, ⟨⟨2, ![B, n₆]⟩, a₆⟩] ha 4 (by simp) a₅ rfl (n₁ + n₂ + n₃ + n₄) (by simp; omega) p j ⟨j.val - (n₁ + n₂ + n₃ + n₄), hb⟩ he]
    exact H₅ p _ r hr
  · have hb : j.val - (n₁ + n₂ + n₃ + n₄ + n₅) < n₆ := by omega
    have he : n₁ + n₂ + n₃ + n₄ + n₅ + (j.val - (n₁ + n₂ + n₃ + n₄ + n₅)) = j.val := by omega
    rw [concat_cols_apply [⟨⟨2, ![N, n₁]⟩, A₁⟩, ⟨⟨2, ![N, n₂]⟩, A₂⟩, ⟨⟨2, ![N, n₃]⟩, A₃⟩, ⟨⟨2, ![N, n₄]⟩, A₄⟩, ⟨⟨2, ![N, n₅]⟩, A₅⟩, ⟨⟨2, ![N, n₆]⟩, A₆⟩] hA 5 (by simp) A₆ rfl (n₁ + n₂ + n₃ + n₄ + n₅) (by simp; omega) r j ⟨j.val - (n₁ + n₂ + n₃ + n₄ + n₅), hb⟩ he,
      concat_cols_apply [⟨⟨2, ![B, n₁]⟩, a₁⟩, ⟨⟨2, ![B, n₂]⟩, a₂⟩, ⟨⟨2, ![B, n₃]⟩, a₃⟩, ⟨⟨2, ![B, n₄]⟩, a₄⟩, ⟨⟨2, ![B, n₅]⟩, a₅⟩, ⟨⟨2, ![B, n₆]⟩, a₆⟩] ha 5 (by simp) a₆ rfl (n₁ + n₂ + n₃ + n₄ + n₅) (by simp; omega) p j ⟨j.val - (n₁ + n₂ + n₃ + n₄ + n₅), hb⟩ he]
    exact H₆ p _ r hr

/-- One row broadcast over all rows: its row block is the same row broadcast over the block's rows. -/
theorem bias (b : (⟨1, ![n]⟩ : Shape).Idx → α) (h1 : (⟨1, ![n]⟩ : Shape).BroadcastsInDim ⟨2, ![1, n]⟩ ![1])
    (h2 : (⟨2, ![1, n]⟩ : Shape).BroadcastsInDim ⟨2, ![N, n]⟩ ![0, 1])
    (hc : (⟨1, ![n]⟩ : Shape).ShapeCasts ⟨2, ![1, n]⟩) (hb : (⟨2, ![1, n]⟩ : Shape).Broadcasts ⟨2, ![B, n]⟩) :
    IsRows B t (broadcastInDim ⟨2, ![N, n]⟩ ![0, 1] h2 (broadcastInDim ⟨2, ![1, n]⟩ ![1] h1 b))
      (broadcastTo ⟨2, ![B, n]⟩ (shapeCast ⟨2, ![1, n]⟩ b hc) hb) := by
  intro p j r _
  rw [broadcastTo_1b_ab_apply, shapeCast_a_1a_apply]
  refine Eq.symm ((broadcastInDim_apply ![0, 1] h2 _ (ix2 r j) (ix2 (0 : Fin 1) j) fun a => ?_).trans
    (broadcastInDim_apply ![1] h1 b (ix2 (0 : Fin 1) j) (ix1 j) fun a => ?_))
  · match a with
    | ⟨0, _⟩ => rfl
    | ⟨1, _⟩ =>
      show j.val = if n = 1 then 0 else j.val
      split
      · have := j.isLt; omega
      · rfl
  · match a with
    | ⟨0, _⟩ =>
      show j.val = if n = 1 then 0 else j.val
      split
      · have := j.isLt; omega
      · rfl

/-! ## Pointwise operations at the exact instance -/

section Arith
variable {φ : FTy} {A A' : FVec Ideal ⟨2, ![N, n]⟩ φ} {a a' : FVec Ideal ⟨2, ![B, n]⟩ φ}

/-- A constant splat: every entry is the constant's value, in the matrix and in the block. -/
theorem splat (φ : FTy) (c : BitVec φ.bits) (h : (⟨0, ![]⟩ : Shape).BroadcastsInDim ⟨2, ![N, n]⟩ ![]) :
    IsRows B t (broadcastInDim ⟨2, ![N, n]⟩ ![] h (constant (F := Ideal) ⟨0, ![]⟩ φ c))
      (broadcast ⟨2, ![B, n]⟩ (Scalar.ofBits (F := Ideal) φ c)) :=
  fun _ _ _ _ => rfl

/-- A change of float format is the identity on extended reals. -/
theorem trunc {ψ : FTy} (H : IsRows B t A a) (h : ψ.bits < φ.bits) : IsRows B t A (truncf ψ a h) :=
  fun p j r hr => H p j r hr

theorem add (H : IsRows B t A a) (H' : IsRows B t A' a') : IsRows B t (addf A A') (addf a a') := by
  intro p j r hr
  rw [addf_apply, addf_apply, H p j r hr, H' p j r hr]

theorem mul (H : IsRows B t A a) (H' : IsRows B t A' a') : IsRows B t (mulf A A') (mulf a a') := by
  intro p j r hr
  rw [mulf_apply, mulf_apply, H p j r hr, H' p j r hr]

theorem sub (H : IsRows B t A a) (H' : IsRows B t A' a') : IsRows B t (subf A A') (subf a a') := by
  intro p j r hr
  rw [subf_apply, subf_apply, H p j r hr, H' p j r hr]

theorem maxf (H : IsRows B t A a) (H' : IsRows B t A' a') : IsRows B t (maximumf A A') (maximumf a a') := by
  intro p j r hr
  rw [maximumf_apply, maximumf_apply, H p j r hr, H' p j r hr]

theorem minf (H : IsRows B t A a) (H' : IsRows B t A' a') : IsRows B t (minimumf A A') (minimumf a a') := by
  intro p j r hr
  rw [minimumf_apply, minimumf_apply, H p j r hr, H' p j r hr]

/-- The host's exponential and the kernel's are one function of an extended real. -/
theorem expf (H : IsRows B t A a) : IsRows B t (Host.exp A) (exp a) := by
  intro p j r hr
  show Ideal.exp (a (ix2 p j)) = Ideal.exp (A (ix2 r j))
  rw [H p j r hr]

/-- The host's hyperbolic tangent and the kernel's are one function of an extended real. -/
theorem tanhf (H : IsRows B t A a) : IsRows B t (Host.tanh A) (tanh a) := by
  intro p j r hr
  show Ideal.tanh (a (ix2 p j)) = Ideal.tanh (A (ix2 r j))
  rw [H p j r hr]

end Arith

/-- The word of the float 1 denotes the real 1. -/
theorem ofBits_one_f32 : Ideal.ofBits .f32 0x3F800000#32 = 1 := by
  simp [Ideal.ofBits, Ideal.ieee, -EReal.coe_mul]; norm_num

/-- The logistic function `1 / (1 + e⁻ˣ)`: spelt out with a negation, an exponential, a sum and a quotient on the whole
    matrix, and as one operation on the block; the two are one function of an extended real by definition. -/
theorem sigmoid {A : FVec Ideal ⟨2, ![N, n]⟩ .f32} {a : FVec Ideal ⟨2, ![B, n]⟩ .f32} (H : IsRows B t A a)
    (h1 h2 : (⟨0, ![]⟩ : Shape).BroadcastsInDim ⟨2, ![N, n]⟩ ![]) :
    IsRows B t
      (Host.divf (broadcastInDim ⟨2, ![N, n]⟩ ![] h1 (constant (F := Ideal) ⟨0, ![]⟩ .f32 0x3F800000#32))
        (addf (broadcastInDim ⟨2, ![N, n]⟩ ![] h2 (constant (F := Ideal) ⟨0, ![]⟩ .f32 0x3F800000#32)) (Host.exp (Host.negf A))))
      (logistic a) := by
  intro p j r hr
  show Ideal.logistic (a (ix2 p j))
    = Ideal.div (Ideal.ofBits .f32 0x3F800000#32) (Ideal.ofBits .f32 0x3F800000#32 + Ideal.exp (-(A (ix2 r j))))
  rw [ofBits_one_f32, H p j r hr]
  rfl

/-! ## A product with a matrix on the right -/

/-- The dimension numbers of a plain product `[M, K] × [K, N]`: the left operand contracted on its columns, the right on
    its rows, no batch axis. -/
def Plain {sl sr so : Shape} (D : DotDims sl sr so) (l1 l0 : Fin sl.rank) (r0 r1 : Fin sr.rank) : Prop :=
  D.lhsContracting = [l1] ∧ D.rhsContracting = [r0] ∧ D.lhsNonContracting = [l0] ∧ D.rhsNonContracting = [r1]
    ∧ D.lhsBatch = [] ∧ D.rhsBatch = []

/-- A plain product read at an entry is the sum over the shared axis. -/
theorem dot_plain_sum {M K N' : Nat} (D : DotDims ⟨2, ![M, K]⟩ ⟨2, ![K, N']⟩ ⟨2, ![M, N']⟩) (hD : Plain D 1 0 0 1)
    (L : (⟨2, ![M, K]⟩ : Shape).Idx → EReal) (R : (⟨2, ![K, N']⟩ : Shape).Idx → EReal) (r : Fin M) (c : Fin N') :
    ∑ k : D.contr.Idx, L (D.lhsIdx (ix2 r c) k) * R (D.rhsIdx (ix2 r c) k) = ∑ k : Fin K, L (ix2 r k) * R (ix2 k c) := by
  obtain ⟨lc, rc, ln, rn, lb, rb, wf⟩ := D
  obtain ⟨h1, h2, h3, h4, h5, h6⟩ := hD
  dsimp only at h1 h2 h3 h4 h5 h6
  subst h1 h2 h3 h4 h5 h6
  rw [← Equiv.sum_comp (contrEquiv1 (DotDims.mk [1] [0] [0] [1] [] [] wf) K rfl rfl).symm]
  refine Finset.sum_congr rfl fun k _ => ?_
  have hk := contrEquiv1_symm_val (DotDims.mk [1] [0] [0] [1] [] [] wf) K rfl rfl k
  have l0 : ∀ q, ((DotDims.mk [1] [0] [0] [1] [] [] wf).lhsIdx (ix2 r c) q 0).val = r.val := fun q => by
    unfold DotDims.lhsIdx
    rw [dif_neg (show ¬(0 : Fin 2) ∈ ([] : List (Fin 2)) by decide), dif_pos (show (0 : Fin 2) ∈ ([0] : List (Fin 2)) by decide)]
    rfl
  have r1 : ∀ q, ((DotDims.mk [1] [0] [0] [1] [] [] wf).rhsIdx (ix2 r c) q 1).val = c.val := fun q => by
    unfold DotDims.rhsIdx
    rw [dif_neg (show ¬(1 : Fin 2) ∈ ([] : List (Fin 2)) by decide), dif_pos (show (1 : Fin 2) ∈ ([1] : List (Fin 2)) by decide)]
    rfl
  have el : (DotDims.mk [1] [0] [0] [1] [] [] wf).lhsIdx (ix2 r c) ((contrEquiv1 (DotDims.mk [1] [0] [0] [1] [] [] wf) K rfl rfl).symm k)
      = ix2 r k := funext fun a => Fin.ext (by
    match a with
    | ⟨0, _⟩ => exact l0 _
    | ⟨1, _⟩ => exact ((DotDims.mk [1] [0] [0] [1] [] [] wf).lhsIdx_val_of_single rfl _ _).trans hk)
  have er : (DotDims.mk [1] [0] [0] [1] [] [] wf).rhsIdx (ix2 r c) ((contrEquiv1 (DotDims.mk [1] [0] [0] [1] [] [] wf) K rfl rfl).symm k)
      = ix2 k c := funext fun a => Fin.ext (by
    match a with
    | ⟨0, _⟩ => exact ((DotDims.mk [1] [0] [0] [1] [] [] wf).rhsIdx_val_of_single rfl _ _).trans hk
    | ⟨1, _⟩ => exact r1 _)
  rw [el, er]

/-- Rows of `L·R` depend on the same rows of `L` only: the host's product of the whole matrix against the kernel's
    product of the block into a zero accumulator, the right operand the same matrix on both sides. -/
theorem dot {K M : Nat} {φ₁ φ₂ : FTy} {L : FVec Ideal ⟨2, ![N, K]⟩ .f32} {l : FVec Ideal ⟨2, ![B, K]⟩ φ₁} (H : IsRows B t L l)
    (D : DotDims ⟨2, ![N, K]⟩ ⟨2, ![K, M]⟩ ⟨2, ![N, M]⟩) (d : DotDims ⟨2, ![B, K]⟩ ⟨2, ![K, M]⟩ ⟨2, ![B, M]⟩)
    (hD : Plain D 1 0 0 1) (hd : Plain d 1 0 0 1)
    (R : FVec Ideal ⟨2, ![K, M]⟩ .f32) (r : FVec Ideal ⟨2, ![K, M]⟩ φ₂) (hR : ∀ k j, r (ix2 k j) = R (ix2 k j)) :
    IsRows B t (Host.dotGeneral D none L R) (matmul d none l r (constant ⟨2, ![B, M]⟩ .f32 0x00000000#32)) := by
  intro p j r' hr
  simp only [Host.dotGeneral, matmul]
  rw [Ideal.matmul_constant_zero_apply, Ideal.dotGeneral_apply, dot_plain_sum d hd, dot_plain_sum D hD]
  exact Finset.sum_congr rfl fun k _ => by rw [H p k r' hr, hR]

end IsRows

end Cert.RowBlock

end
-- ==== Proof.Region0.lean ====
/-
  The first dense projection. The pallas_call walks the 100000 rows of `x` in 20 blocks of 5000 rows; at block `t`
  the body multiplies rows `5000·t … 5000·t + 4999` of `x` by the whole 128×128 weight matrix into a zero accumulator
  (the change of float format before the product is the identity on extended reals) and writes the product back
  as the same rows of the output. Row `r` of a product `L·R` depends on row `r` of `L` only, so block `t` of the
  output is block `t` of the whole product `x·W`, and the 20 blocks cover every row: the output array ends
  holding `x·W`, spelt as the host's `dot_general` over any plain pair of dimension numbers.
-/
import proofs.«181539_j60129542735_1_alg».proof.Proof.Gen.KernelIdeal.Frame
import proofs.«181539_j60129542735_1_alg».proof.Proof.LibRowBlock

set_option maxRecDepth 16384

noncomputable section

namespace Cert.KernelIdeal.Region0

open Idealize.ShloMosaic Idealize.ShloMosaic.TcCoe Idealize.ShloMosaic.ValueIdx Idealize.SL.Sem
open Idealize.ShloMosaic.Pipeline (Dat)
open Cert.KernelIdeal Cert.KernelIdeal.Gen Cert.RowBlock

-- the contents of the TensorCore's buffers when the region is entered
variable (V : (c : Dev nD) → (b : Ref sig .tc) → Buf (Elt Ideal) ((c : Thread nD τ).loc b))

/-- The left operand's array and the weight matrix as the region finds them. -/
abbrev lhsArr (c : Dev nD) : FVec Ideal S100000x128 .f32 := V c main_arg0
abbrev rhsArr (c : Dev nD) : FVec Ideal S128x128 .f32 := V c main_arg2
/-- Their blocks at grid point `t`. -/
abbrev lhsBlk (c : Dev nD) (t : Fin cfg0.N) : Vec Ideal S5000x128 .f32 := iblk0 V c 0 t
abbrev rhsBlk (c : Dev nD) (t : Fin cfg0.N) : Vec Ideal S128x128 .f32 := iblk0 V c 1 t

theorem origin : (![0, 0] : Fin 2 → Nat) = fun _ => 0 := funext fun a => by fin_cases a <;> rfl

/-- The block indices over the grid: the left operand and the output move down one row block per point, the weight
    matrix stays whole. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- The left block at point `t` is rows `5000·t …` of the left array. -/
theorem lhs_rows (c : Dev nD) (t : Fin cfg0.N) : IsRows 5000 t.val (lhsArr V c) (lhsBlk V c t) := by
  intro p j r hr
  show V c main_arg0 (((cfg0.win 0).blk t).view.emb (ix2 p j)) = V c main_arg0 (ix2 r j)
  refine congrArg (V c main_arg0) ?_
  obtain ⟨e0, e1, -⟩ := idx_facts t
  funext a; apply Fin.ext
  match a with
  | ⟨0, _⟩ => show win0_0.index t (0 : Fin 2) * 5000 + 1 * p.val = r.val; omega
  | ⟨1, _⟩ => show win0_0.index t (1 : Fin 2) * 128 + 1 * j.val = j.val; omega

/-- The weight block at every point is the whole weight matrix. -/
theorem rhs_whole (c : Dev nD) (t : Fin cfg0.N) (k j : Fin 128) : rhsBlk V c t (ix2 k j) = rhsArr V c (ix2 k j) := by
  show V c main_arg2 (((cfg0.win 1).blk t).view.emb (ix2 k j)) = V c main_arg2 (ix2 k j)
  refine congrArg (V c main_arg2) ?_
  obtain ⟨-, -, e2, e3, -⟩ := idx_facts t
  funext a; apply Fin.ext
  match a with
  | ⟨0, _⟩ => show win0_1.index t (0 : Fin 2) * 128 + 1 * k.val = k.val; omega
  | ⟨1, _⟩ => show win0_1.index t (1 : Fin 2) * 128 + 1 * j.val = j.val; omega

/-- The body's product of a row block is the row block of the whole product. -/
theorem payload_rows {t : Nat} (A : FVec Ideal S100000x128 .f32) (W : FVec Ideal S128x128 .f32)
    (a : Vec Ideal S5000x128 .f32) (w : Vec Ideal S128x128 .f32) (H : IsRows 5000 t A a)
    (hw : ∀ k j, w (ix2 k j) = W (ix2 k j))
    (D : DotDims S100000x128 S128x128 S100000x128) (hD : IsRows.Plain D 1 0 0 1) :
    IsRows 5000 t (Host.dotGeneral (F := Ideal) D none A W) (k0_pay1 a w) := by
  unfold k0_pay1
  exact IsRows.dot (H.trunc bitsLt_bf16_f32) D dot_S5000x128_S128x128_S5000x128_1_0_0_1_n_n hD ⟨rfl, rfl, rfl, rfl, rfl, rfl⟩ W
    (truncf .bf16 w bitsLt_bf16_f32) hw

/-- An index of the output array lies in point `t`'s block iff each coordinate lies in the block's range. -/
theorem mem_blk (t : Fin cfg0.N) (i : S100000x128.Idx) :
    i ∈ ((cfg0.win 2).blk t).view.set ↔ ∀ a : Fin 2, win0_2.index t a * S5000x128.size a ≤ (i a).val
      ∧ (i a).val < win0_2.index t a * S5000x128.size a + S5000x128.size a := by
  show i ∈ ((View.whole main_v30).slice (win0_2.rect t)).set ↔ _
  rw [View.set_slice_whole, Rect.mem_set_unit]
  exact Iff.rfl

/-- Every index of the output array lies in the block of the point that holds its row. -/
theorem cover (i : S100000x128.Idx) : ∃ t : Fin cfg0.N, (cfg0.win 2).flush t = true ∧ i ∈ ((cfg0.win 2).blk t).view.set := by
  have hi0 : (i 0).val < 100000 := (i 0).isLt
  have hi1 : (i 1).val < 128 := (i 1).isLt
  have hN : (i 0).val / 5000 < cfg0.N := by rw [show cfg0.N = 20 from N_0]; omega
  refine ⟨⟨(i 0).val / 5000, hN⟩, flush0_2 _, ?_⟩
  rw [mem_blk]
  obtain ⟨-, -, -, -, e4, e5⟩ := idx_facts ⟨(i 0).val / 5000, hN⟩
  intro a
  match a with
  | ⟨0, _⟩ =>
    show win0_2.index ⟨(i 0).val / 5000, hN⟩ (0 : Fin 2) * 5000 ≤ (i 0).val
      ∧ (i 0).val < win0_2.index ⟨(i 0).val / 5000, hN⟩ (0 : Fin 2) * 5000 + 5000
    rw [e4]; dsimp only; omega
  | ⟨1, _⟩ =>
    show win0_2.index ⟨(i 0).val / 5000, hN⟩ (1 : Fin 2) * 128 ≤ (i 1).val
      ∧ (i 1).val < win0_2.index ⟨(i 0).val / 5000, hN⟩ (1 : Fin 2) * 128 + 128
    rw [e5]; omega

/-- What point `t` writes back is block `t` of the whole product. -/
theorem flushed_eq (D : DotDims S100000x128 S128x128 S100000x128) (hD : IsRows.Plain D 1 0 0 1) (c : Dev nD) (t : Fin cfg0.N) :
    (dat0 V c).flushed 2 t
      = ((cfg0.win 2).blk t).view.read (Elt Ideal) (Host.dotGeneral (F := Ideal) D none (lhsArr V c) (rhsArr V c)) := by
  show (cfg0.win 2).cut (grid0.coords t) ((dat0 V c).after 2 t) = _
  rw [after0_2]
  unfold out0_2
  rw [View.canon_unit_zero origin]
  simp only [View.ld_unit_zero (S := S5000x128) origin, View.ld_unit_zero (S := S128x128) origin]
  funext y
  obtain ⟨p, j, rfl⟩ : ∃ (p : Fin 5000) (j : Fin 128), y = ix2 p j := ⟨y 0, y 1, eq_ix2 y⟩
  obtain ⟨-, -, -, -, e4, e5⟩ := idx_facts t
  have ht : t.val < 20 := by have h := t.isLt; have e : cfg0.N = 20 := N_0; omega
  have hrow : 5000 * t.val + p.val < 100000 := by have := p.isLt; omega
  have hemb : ((cfg0.win 2).blk t).view.emb (ix2 p j) = (ix2 ⟨5000 * t.val + p.val, hrow⟩ j : S100000x128.Idx) := by
    funext a; apply Fin.ext
    match a with
    | ⟨0, _⟩ => show win0_2.index t (0 : Fin 2) * 5000 + 1 * p.val = 5000 * t.val + p.val; omega
    | ⟨1, _⟩ => show win0_2.index t (1 : Fin 2) * 128 + 1 * j.val = j.val; omega
  show k0_pay1 (lhsBlk V c t) (rhsBlk V c t) (ix2 p j)
    = Host.dotGeneral (F := Ideal) D none (lhsArr V c) (rhsArr V c) (((cfg0.win 2).blk t).view.emb (ix2 p j))
  rw [hemb]
  exact payload_rows (lhsArr V c) (rhsArr V c) (lhsBlk V c t) (rhsBlk V c t) (lhs_rows V c t) (rhs_whole V c t) D hD
    p j ⟨5000 * t.val + p.val, hrow⟩ rfl

/-- The output array after the region is the whole product of the two arrays the region found. -/
theorem arr_eq (D : DotDims S100000x128 S128x128 S100000x128) (hD : IsRows.Plain D 1 0 0 1) (c : Dev nD) :
    (dat0 V c).arrAt 2 cfg0.N = Host.dotGeneral (F := Ideal) D none (lhsArr V c) (rhsArr V c) :=
  (dat0 V c).arrAt_eq_of_cover 2 _ (fun t _ => flushed_eq V D hD c t) cover

end Cert.KernelIdeal.Region0

end
-- ==== Proof.Region1.lean ====
/-
  The end of the first layer. The pallas_call walks the 100000 rows of the propagated matrix in 20 blocks of 5000
  rows; at block `t` the body adds the bias row to every row of the block and takes the positive part, entry by
  entry, and writes the result back as the same rows of the output. Both operations act on each row by itself, so
  block `t` of the output is block `t` of the whole matrix plus the bias rows, positive part taken, and the 20
  blocks cover every row.
-/
import proofs.«181539_j60129542735_1_alg».proof.Proof.Gen.KernelIdeal.Frame
import proofs.«181539_j60129542735_1_alg».proof.Proof.LibRowBlock
import proofs.«181539_j60129542735_1_alg».proof.Proof.GcnSpec

set_option maxRecDepth 16384

noncomputable section

namespace Cert.KernelIdeal.Region1

open Idealize.ShloMosaic Idealize.ShloMosaic.TcCoe Idealize.ShloMosaic.ValueIdx Idealize.SL.Sem
open Idealize.ShloMosaic.Pipeline (Dat)
open Cert.KernelIdeal Cert.KernelIdeal.Gen Cert.RowBlock

-- the contents of the TensorCore's buffers when the region is entered
variable (V : (c : Dev nD) → (b : Ref sig .tc) → Buf (Elt Ideal) ((c : Thread nD τ).loc b))

/-- The propagated matrix and the bias row (already a 1×128 matrix) as the region finds them. -/
abbrev inArr (c : Dev nD) : FVec Ideal S100000x128 .f32 := V c main_v43
abbrev rowArr (c : Dev nD) : FVec Ideal S1x128 .f32 := V c main_v44
/-- Their blocks at grid point `t`. -/
abbrev inBlk (c : Dev nD) (t : Fin cfg1.N) : Vec Ideal S5000x128 .f32 := iblk1 V c 0 t
abbrev rowBlk (c : Dev nD) (t : Fin cfg1.N) : Vec Ideal S1x128 .f32 := iblk1 V c 1 t

theorem origin : (![0, 0] : Fin 2 → Nat) = fun _ => 0 := funext fun a => by fin_cases a <;> rfl

/-- The block indices over the grid: the matrix and the output move down one row block per point, the bias row
    stays whole. -/
theorem idx_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- The matrix block at point `t` is rows `5000·t …` of the matrix. -/
theorem in_rows (c : Dev nD) (t : Fin cfg1.N) : IsRows 5000 t.val (inArr V c) (inBlk V c t) := by
  intro p j r hr
  show V c main_v43 (((cfg1.win 0).blk t).view.emb (ix2 p j)) = V c main_v43 (ix2 r j)
  refine congrArg (V c main_v43) ?_
  obtain ⟨e0, e1, -⟩ := idx_facts t
  funext a; apply Fin.ext
  match a with
  | ⟨0, _⟩ => show win1_0.index t (0 : Fin 2) * 5000 + 1 * p.val = r.val; omega
  | ⟨1, _⟩ => show win1_0.index t (1 : Fin 2) * 128 + 1 * j.val = j.val; omega

/-- The bias block at every point is the whole bias row. -/
theorem row_whole (c : Dev nD) (t : Fin cfg1.N) (u : Fin 1) (j : Fin 128) : rowBlk V c t (ix2 u j) = rowArr V c (ix2 u j) := by
  show V c main_v44 (((cfg1.win 1).blk t).view.emb (ix2 u j)) = V c main_v44 (ix2 u j)
  refine congrArg (V c main_v44) ?_
  obtain ⟨-, -, e2, e3, -⟩ := idx_facts t
  funext a; apply Fin.ext
  match a with
  | ⟨0, _⟩ => show win1_1.index t (0 : Fin 2) * 1 + 1 * u.val = u.val; omega
  | ⟨1, _⟩ => show win1_1.index t (1 : Fin 2) * 128 + 1 * j.val = j.val; omega

/-- The bias row spread over the block's rows is the row block of the bias spread over all rows, when the 1×128
    block holds the bias vector's entries. -/
theorem bias_rows {t : Nat} (b : FVec Ideal S128 .f32) (v : Vec Ideal S1x128 .f32)
    (hv : ∀ (u : Fin 1) (j : Fin 128), v (ix2 u j) = shapeCast S1x128 b shapeCasts_S128_S1x128 (ix2 u j)) :
    IsRows 5000 t (Cert.Gcn.biasRows128 (F := Ideal) b)
      (broadcastTo S5000x128 (shapeCast S1x128 v shapeCasts_S1x128_S1x128) broadcasts_S1x128_S5000x128) := by
  intro p j r hr
  have H := IsRows.bias (B := 5000) (t := t) (N := 100000) b Cert.ReferenceIdeal.Gen.bcast_S128_S1x128_1 Cert.ReferenceIdeal.Gen.bcast_S1x128_S100000x128_0_1 shapeCasts_S128_S1x128 broadcasts_S1x128_S5000x128
  calc broadcastTo S5000x128 (shapeCast S1x128 v shapeCasts_S1x128_S1x128) broadcasts_S1x128_S5000x128 (ix2 p j)
      = shapeCast S1x128 b shapeCasts_S128_S1x128 (ix2 (0 : Fin 1) j) := by
        rw [broadcastTo_1b_ab_apply, shapeCast_self]; exact hv 0 j
    _ = broadcastTo S5000x128 (shapeCast S1x128 b shapeCasts_S128_S1x128) broadcasts_S1x128_S5000x128 (ix2 p j) := (broadcastTo_1b_ab_apply _ _ p j).symm
    _ = _ := H p j r hr

/-- The body's result on a row block is the row block of the whole result. -/
theorem payload_rows {t : Nat} (A : FVec Ideal S100000x128 .f32) (b : FVec Ideal S128 .f32)
    (a : Vec Ideal S5000x128 .f32) (v : Vec Ideal S1x128 .f32) (H : IsRows 5000 t A a)
    (hv : ∀ (u : Fin 1) (j : Fin 128), v (ix2 u j) = shapeCast S1x128 b shapeCasts_S128_S1x128 (ix2 u j)) :
    IsRows 5000 t (Cert.Gcn.biasRelu (F := Ideal) A b) (k1_pay1 a v) := by
  unfold k1_pay1 Cert.Gcn.biasRelu
  have H' : IsRows 5000 t A (shapeCast S5000x128 a shapeCasts_S5000x128_S5000x128) := by
    rw [shapeCast_self]; exact H
  exact IsRows.maxf (IsRows.add H' (bias_rows b v hv)) (IsRows.splat .f32 0x00000000#32 Cert.ReferenceIdeal.Gen.bcast_S_S100000x128)

/-- An index of the output array lies in point `t`'s block iff each coordinate lies in the block's range. -/
theorem mem_blk (t : Fin cfg1.N) (i : S100000x128.Idx) :
    i ∈ ((cfg1.win 2).blk t).view.set ↔ ∀ a : Fin 2, win1_2.index t a * S5000x128.size a ≤ (i a).val
      ∧ (i a).val < win1_2.index t a * S5000x128.size a + S5000x128.size a := by
  show i ∈ ((View.whole main_v45).slice (win1_2.rect t)).set ↔ _
  rw [View.set_slice_whole, Rect.mem_set_unit]
  exact Iff.rfl

/-- Every index of the output array lies in the block of the point that holds its row. -/
theorem cover (i : S100000x128.Idx) : ∃ t : Fin cfg1.N, (cfg1.win 2).flush t = true ∧ i ∈ ((cfg1.win 2).blk t).view.set := by
  have hi0 : (i 0).val < 100000 := (i 0).isLt
  have hi1 : (i 1).val < 128 := (i 1).isLt
  have hN : (i 0).val / 5000 < cfg1.N := by rw [show cfg1.N = 20 from N_1]; omega
  refine ⟨⟨(i 0).val / 5000, hN⟩, flush1_2 _, ?_⟩
  rw [mem_blk]
  obtain ⟨-, -, -, -, e4, e5⟩ := idx_facts ⟨(i 0).val / 5000, hN⟩
  intro a
  match a with
  | ⟨0, _⟩ =>
    show win1_2.index ⟨(i 0).val / 5000, hN⟩ (0 : Fin 2) * 5000 ≤ (i 0).val
      ∧ (i 0).val < win1_2.index ⟨(i 0).val / 5000, hN⟩ (0 : Fin 2) * 5000 + 5000
    rw [e4]; dsimp only; omega
  | ⟨1, _⟩ =>
    show win1_2.index ⟨(i 0).val / 5000, hN⟩ (1 : Fin 2) * 128 ≤ (i 1).val
      ∧ (i 1).val < win1_2.index ⟨(i 0).val / 5000, hN⟩ (1 : Fin 2) * 128 + 128
    rw [e5]; omega

/-- What point `t` writes back is block `t` of the whole result, when the bias row the region finds is the bias
    vector `b` as a 1×128 matrix. -/
theorem flushed_eq (b : FVec Ideal S128 .f32) (c : Dev nD)
    (hb : rowArr V c = shapeCast S1x128 b shapeCasts_S128_S1x128) (t : Fin cfg1.N) :
    (dat1 V c).flushed 2 t
      = ((cfg1.win 2).blk t).view.read (Elt Ideal) (Cert.Gcn.biasRelu (F := Ideal) (inArr V c) b) := by
  show (cfg1.win 2).cut (grid1.coords t) ((dat1 V c).after 2 t) = _
  rw [after1_2]
  unfold out1_2
  rw [View.canon_unit_zero origin]
  simp only [View.ld_unit_zero (S := S5000x128) origin, View.ld_unit_zero (S := S1x128) origin]
  funext y
  obtain ⟨p, j, rfl⟩ : ∃ (p : Fin 5000) (j : Fin 128), y = ix2 p j := ⟨y 0, y 1, eq_ix2 y⟩
  obtain ⟨-, -, -, -, e4, e5⟩ := idx_facts t
  have ht : t.val < 20 := by have h := t.isLt; have e : cfg1.N = 20 := N_1; omega
  have hrow : 5000 * t.val + p.val < 100000 := by have := p.isLt; omega
  have hemb : ((cfg1.win 2).blk t).view.emb (ix2 p j) = (ix2 ⟨5000 * t.val + p.val, hrow⟩ j : S100000x128.Idx) := by
    funext a; apply Fin.ext
    match a with
    | ⟨0, _⟩ => show win1_2.index t (0 : Fin 2) * 5000 + 1 * p.val = 5000 * t.val + p.val; omega
    | ⟨1, _⟩ => show win1_2.index t (1 : Fin 2) * 128 + 1 * j.val = j.val; omega
  show k1_pay1 (inBlk V c t) (rowBlk V c t) (ix2 p j)
    = Cert.Gcn.biasRelu (F := Ideal) (inArr V c) b (((cfg1.win 2).blk t).view.emb (ix2 p j))
  rw [hemb]
  exact payload_rows (inArr V c) b (inBlk V c t) (rowBlk V c t) (in_rows V c t)
    (fun u j => (row_whole V c t u j).trans (congrFun hb (ix2 u j))) p j ⟨5000 * t.val + p.val, hrow⟩ rfl

/-- The output array after the region is the whole result of the matrix the region found and the bias vector. -/
theorem arr_eq (b : FVec Ideal S128 .f32) (c : Dev nD) (hb : rowArr V c = shapeCast S1x128 b shapeCasts_S128_S1x128) :
    (dat1 V c).arrAt 2 cfg1.N = Cert.Gcn.biasRelu (F := Ideal) (inArr V c) b :=
  (dat1 V c).arrAt_eq_of_cover 2 _ (fun t _ => flushed_eq V b c hb t) cover

end Cert.KernelIdeal.Region1

end
-- ==== Proof.Region2.lean ====
/-
  The second dense projection. The pallas_call walks the 100000 rows of the hidden features in 20 blocks of 5000
  rows; at block `t` the body multiplies rows `5000·t … 5000·t + 4999` by the whole 128×64 weight matrix into a zero
  accumulator (the cast of the block to its own shape and the change of float format are the identity on extended
  reals) and writes the product back as the same rows of the output. Row `r` of `L·R` depends on row `r` of `L`
  only, so block `t` of the output is block `t` of the whole product, and the 20 blocks cover every row: the output
  array ends holding the whole product, spelt as the host's `dot_general` over any plain pair of dimension numbers.
-/
import proofs.«181539_j60129542735_1_alg».proof.Proof.Gen.KernelIdeal.Frame
import proofs.«181539_j60129542735_1_alg».proof.Proof.LibRowBlock

set_option maxRecDepth 16384

noncomputable section

namespace Cert.KernelIdeal.Region2

open Idealize.ShloMosaic Idealize.ShloMosaic.TcCoe Idealize.ShloMosaic.ValueIdx Idealize.SL.Sem
open Idealize.ShloMosaic.Pipeline (Dat)
open Cert.KernelIdeal Cert.KernelIdeal.Gen Cert.RowBlock

-- the contents of the TensorCore's buffers when the region is entered
variable (V : (c : Dev nD) → (b : Ref sig .tc) → Buf (Elt Ideal) ((c : Thread nD τ).loc b))

/-- The left operand's array and the weight matrix as the region finds them. -/
abbrev lhsArr (c : Dev nD) : FVec Ideal S100000x128 .f32 := V c main_v45
abbrev rhsArr (c : Dev nD) : FVec Ideal S128x64 .f32 := V c main_arg4
/-- Their blocks at grid point `t`. -/
abbrev lhsBlk (c : Dev nD) (t : Fin cfg2.N) : Vec Ideal S5000x128 .f32 := iblk2 V c 0 t
abbrev rhsBlk (c : Dev nD) (t : Fin cfg2.N) : Vec Ideal S128x64 .f32 := iblk2 V c 1 t

theorem origin : (![0, 0] : Fin 2 → Nat) = fun _ => 0 := funext fun a => by fin_cases a <;> rfl

/-- The block indices over the grid: the left operand and the output move down one row block per point, the weight
    matrix stays whole. -/
theorem idx_facts : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- The left block at point `t` is rows `5000·t …` of the left array. -/
theorem lhs_rows (c : Dev nD) (t : Fin cfg2.N) : IsRows 5000 t.val (lhsArr V c) (lhsBlk V c t) := by
  intro p j r hr
  show V c main_v45 (((cfg2.win 0).blk t).view.emb (ix2 p j)) = V c main_v45 (ix2 r j)
  refine congrArg (V c main_v45) ?_
  obtain ⟨e0, e1, -⟩ := idx_facts t
  funext a; apply Fin.ext
  match a with
  | ⟨0, _⟩ => show win2_0.index t (0 : Fin 2) * 5000 + 1 * p.val = r.val; omega
  | ⟨1, _⟩ => show win2_0.index t (1 : Fin 2) * 128 + 1 * j.val = j.val; omega

/-- The weight block at every point is the whole weight matrix. -/
theorem rhs_whole (c : Dev nD) (t : Fin cfg2.N) (k : Fin 128) (j : Fin 64) : rhsBlk V c t (ix2 k j) = rhsArr V c (ix2 k j) := by
  show V c main_arg4 (((cfg2.win 1).blk t).view.emb (ix2 k j)) = V c main_arg4 (ix2 k j)
  refine congrArg (V c main_arg4) ?_
  obtain ⟨-, -, e2, e3, -⟩ := idx_facts t
  funext a; apply Fin.ext
  match a with
  | ⟨0, _⟩ => show win2_1.index t (0 : Fin 2) * 128 + 1 * k.val = k.val; omega
  | ⟨1, _⟩ => show win2_1.index t (1 : Fin 2) * 64 + 1 * j.val = j.val; omega

/-- The body's product of a row block is the row block of the whole product. -/
theorem payload_rows {t : Nat} (A : FVec Ideal S100000x128 .f32) (W : FVec Ideal S128x64 .f32)
    (a : Vec Ideal S5000x128 .f32) (w : Vec Ideal S128x64 .f32) (H : IsRows 5000 t A a)
    (hw : ∀ k j, w (ix2 k j) = W (ix2 k j))
    (D : DotDims S100000x128 S128x64 S100000x64) (hD : IsRows.Plain D 1 0 0 1) :
    IsRows 5000 t (Host.dotGeneral (F := Ideal) D none A W) (k2_pay1 a w) := by
  unfold k2_pay1
  have H' : IsRows 5000 t A (shapeCast S5000x128 a shapeCasts_S5000x128_S5000x128) := by
    rw [shapeCast_self]; exact H
  exact IsRows.dot (H'.trunc bitsLt_bf16_f32) D dot_S5000x128_S128x64_S5000x64_1_0_0_1_n_n hD ⟨rfl, rfl, rfl, rfl, rfl, rfl⟩ W
    (truncf .bf16 w bitsLt_bf16_f32) hw

/-- An index of the output array lies in point `t`'s block iff each coordinate lies in the block's range. -/
theorem mem_blk (t : Fin cfg2.N) (i : S100000x64.Idx) :
    i ∈ ((cfg2.win 2).blk t).view.set ↔ ∀ a : Fin 2, win2_2.index t a * S5000x64.size a ≤ (i a).val
      ∧ (i a).val < win2_2.index t a * S5000x64.size a + S5000x64.size a := by
  show i ∈ ((View.whole main_v46).slice (win2_2.rect t)).set ↔ _
  rw [View.set_slice_whole, Rect.mem_set_unit]
  exact Iff.rfl

/-- Every index of the output array lies in the block of the point that holds its row. -/
theorem cover (i : S100000x64.Idx) : ∃ t : Fin cfg2.N, (cfg2.win 2).flush t = true ∧ i ∈ ((cfg2.win 2).blk t).view.set := by
  have hi0 : (i 0).val < 100000 := (i 0).isLt
  have hi1 : (i 1).val < 64 := (i 1).isLt
  have hN : (i 0).val / 5000 < cfg2.N := by rw [show cfg2.N = 20 from N_2]; omega
  refine ⟨⟨(i 0).val / 5000, hN⟩, flush2_2 _, ?_⟩
  rw [mem_blk]
  obtain ⟨-, -, -, -, e4, e5⟩ := idx_facts ⟨(i 0).val / 5000, hN⟩
  intro a
  match a with
  | ⟨0, _⟩ =>
    show win2_2.index ⟨(i 0).val / 5000, hN⟩ (0 : Fin 2) * 5000 ≤ (i 0).val
      ∧ (i 0).val < win2_2.index ⟨(i 0).val / 5000, hN⟩ (0 : Fin 2) * 5000 + 5000
    rw [e4]; dsimp only; omega
  | ⟨1, _⟩ =>
    show win2_2.index ⟨(i 0).val / 5000, hN⟩ (1 : Fin 2) * 64 ≤ (i 1).val
      ∧ (i 1).val < win2_2.index ⟨(i 0).val / 5000, hN⟩ (1 : Fin 2) * 64 + 64
    rw [e5]; omega

/-- What point `t` writes back is block `t` of the whole product. -/
theorem flushed_eq (D : DotDims S100000x128 S128x64 S100000x64) (hD : IsRows.Plain D 1 0 0 1) (c : Dev nD) (t : Fin cfg2.N) :
    (dat2 V c).flushed 2 t
      = ((cfg2.win 2).blk t).view.read (Elt Ideal) (Host.dotGeneral (F := Ideal) D none (lhsArr V c) (rhsArr V c)) := by
  show (cfg2.win 2).cut (grid2.coords t) ((dat2 V c).after 2 t) = _
  rw [after2_2]
  unfold out2_2
  rw [View.canon_unit_zero origin]
  simp only [View.ld_unit_zero (S := S5000x128) origin, View.ld_unit_zero (S := S128x64) origin]
  funext y
  obtain ⟨p, j, rfl⟩ : ∃ (p : Fin 5000) (j : Fin 64), y = ix2 p j := ⟨y 0, y 1, eq_ix2 y⟩
  obtain ⟨-, -, -, -, e4, e5⟩ := idx_facts t
  have ht : t.val < 20 := by have h := t.isLt; have e : cfg2.N = 20 := N_2; omega
  have hrow : 5000 * t.val + p.val < 100000 := by have := p.isLt; omega
  have hemb : ((cfg2.win 2).blk t).view.emb (ix2 p j) = (ix2 ⟨5000 * t.val + p.val, hrow⟩ j : S100000x64.Idx) := by
    funext a; apply Fin.ext
    match a with
    | ⟨0, _⟩ => show win2_2.index t (0 : Fin 2) * 5000 + 1 * p.val = 5000 * t.val + p.val; omega
    | ⟨1, _⟩ => show win2_2.index t (1 : Fin 2) * 64 + 1 * j.val = j.val; omega
  show k2_pay1 (lhsBlk V c t) (rhsBlk V c t) (ix2 p j)
    = Host.dotGeneral (F := Ideal) D none (lhsArr V c) (rhsArr V c) (((cfg2.win 2).blk t).view.emb (ix2 p j))
  rw [hemb]
  exact payload_rows (lhsArr V c) (rhsArr V c) (lhsBlk V c t) (rhsBlk V c t) (lhs_rows V c t) (rhs_whole V c t) D hD
    p j ⟨5000 * t.val + p.val, hrow⟩ rfl

/-- The output array after the region is the whole product of the two arrays the region found. -/
theorem arr_eq (D : DotDims S100000x128 S128x64 S100000x64) (hD : IsRows.Plain D 1 0 0 1) (c : Dev nD) :
    (dat2 V c).arrAt 2 cfg2.N = Host.dotGeneral (F := Ideal) D none (lhsArr V c) (rhsArr V c) :=
  (dat2 V c).arrAt_eq_of_cover 2 _ (fun t _ => flushed_eq V D hD c t) cover

end Cert.KernelIdeal.Region2

end
-- ==== Proof.KernelValue.lean ====
/-
  The kernel program's result as one function of its arguments, at the exact instance.

  Read backwards from the result buffer: the fourth pallas_call leaves the propagated 64-feature matrix plus the
  second bias; that matrix is one propagation step of what the third call wrote, the second projection of what the
  second call wrote; the second call wrote the positive part of the propagated 128-feature matrix plus the first bias;
  that matrix is one propagation step of the first call's output, the first projection of the input features. The edge
  list, the edge weights and the argument arrays are the same at every boundary, so the composition is the
  specification's two-layer network of the launch contents.
-/
import proofs.«181539_j60129542735_1_alg».proof.Proof.Boundary
import proofs.«181539_j60129542735_1_alg».proof.Proof.Region0
import proofs.«181539_j60129542735_1_alg».proof.Proof.Region1
import proofs.«181539_j60129542735_1_alg».proof.Proof.Region2
import proofs.«181539_j60129542735_1_alg».proof.Proof.Region3

set_option maxRecDepth 16384

noncomputable section

namespace Cert.KernelIdeal.KernelValue

open Idealize.ShloMosaic Idealize.ShloMosaic.TcCoe Idealize.SL.Sem
open Cert.KernelIdeal Cert.KernelIdeal.Gen Cert.KernelIdeal.Boundary Cert.RowBlock

variable (m : (ℓ : Loc nD τ sig) → Buf (Elt Ideal) ℓ) (ρ : Dev nD → PrngReg)

/-- The dimension numbers of the two whole-matrix products are plain: rows by columns, no batch axis. -/
theorem plain1 : IsRows.Plain Cert.ReferenceIdeal.dot_S100000x128_S128x128_S100000x128_1_0_0_1_n_n 1 0 0 1 :=
  ⟨rfl, rfl, rfl, rfl, rfl, rfl⟩
theorem plain2 : IsRows.Plain Cert.ReferenceIdeal.dot_S100000x128_S128x64_S100000x64_1_0_0_1_n_n 1 0 0 1 :=
  ⟨rfl, rfl, rfl, rfl, rfl, rfl⟩

/-- After the first call its output holds the first projection of the launched features and weights. -/
theorem after_call0 (c : Dev nD) : W4 m ρ c (Proc.devRef .tc main_v30)
    = Cert.Gcn.project1 (F := Ideal) (m ((c : Thread nD τ).loc main_arg0)) (m ((c : Thread nD τ).loc main_arg2)) := by
  refine (W4_arr m ρ c 2).trans ((Region0.arr_eq (V3 m ρ) _ plain1 c).trans ?_)
  dsimp only [Region0.lhsArr, Region0.rhsArr, V3]
  rw [W3_arg0 m ρ c, W3_arg2 m ρ c]
  rfl

/-- After the second call its output holds the positive part of the propagated matrix plus the first bias. -/
theorem after_call1 (c : Dev nD) : W6 m ρ c (Proc.devRef .tc main_v45)
    = Cert.Gcn.biasRelu (F := Ideal) (W5 m ρ c (Proc.devRef .tc main_v43)) (m ((c : Thread nD τ).loc main_arg3)) :=
  (W6_arr m ρ c 2).trans (Region1.arr_eq (V5 m ρ) (m ((c : Thread nD τ).loc main_arg3)) c (W5_bias m ρ c))

/-- After the third call its output holds the second projection of the second call's output. -/
theorem after_call2 (c : Dev nD) : W7 m ρ c (Proc.devRef .tc main_v46)
    = Cert.Gcn.project2 (F := Ideal) (W6 m ρ c (Proc.devRef .tc main_v45)) (m ((c : Thread nD τ).loc main_arg4)) := by
  refine (W7_arr m ρ c 2).trans ((Region2.arr_eq (V6 m ρ) _ plain2 c).trans ?_)
  dsimp only [Region2.lhsArr, Region2.rhsArr, V6]
  rw [W6_arg4 m ρ c]
  rfl

/-- After the fourth call the result buffer holds the propagated matrix plus the second bias. -/
theorem after_call3 (c : Dev nD) : W9 m ρ c (Proc.devRef .tc main_v61)
    = Cert.Gcn.biasOnly (F := Ideal) (W8 m ρ c (Proc.devRef .tc main_v59)) (m ((c : Thread nD τ).loc main_arg5)) :=
  (W9_arr m ρ c 2).trans (Region3.arr_eq (V8 m ρ) (m ((c : Thread nD τ).loc main_arg5)) c (W8_bias m ρ c))

/-- The result buffer at the last boundary is the two-layer network of the launch contents. -/
theorem result_eq (c : Dev nD) : W9 m ρ c (Proc.devRef .tc main_v61)
    = Cert.Gcn.network (F := Ideal) (m ((c : Thread nD τ).loc main_arg0)) (m ((c : Thread nD τ).loc main_arg1))
        (m ((c : Thread nD τ).loc main_arg2)) (m ((c : Thread nD τ).loc main_arg3))
        (m ((c : Thread nD τ).loc main_arg4)) (m ((c : Thread nD τ).loc main_arg5)) := by
  rw [after_call3 m ρ c, W8_prop m ρ c, after_call2 m ρ c, after_call1 m ρ c, W5_prop m ρ c, after_call0 m ρ c]
  rfl

end Cert.KernelIdeal.KernelValue

end
-- ==== Proof.lean ====
/-
  The certificate of a two-layer graph convolution: a Pallas program of four pallas_calls (two dense projections on the
  matrix unit with their operands cast to a shorter float format, two elementwise bias stages, the first with a
  positive part) among host stretches that gather, scale and scatter-add along the edges, against a plain reference
  that does the same with host matrix products.

  Over the extended reals a change of float format is the identity and a product into a zero accumulator is the
  host's product, so each pallas_call, walking the node rows in 20 blocks, leaves in its output the whole-matrix
  operation of its inputs (the four region modules); the host stretches between the calls are, operation for operation,
  the reference's own (the boundary module); hence the kernel program's result is the specification's two-layer network
  of its arguments (the value module), and the reference's run, read segment by segment, ends with that same network. No law of
  arithmetic beyond reading a matrix product as a sum over the shared axis is used, so finiteness of the inputs is
  never opened. The frames of the two kernel programs are the generated ones, the reference's frame is its run with the
  result dropped, and the idealization rewrote nothing, so there is nothing to preserve.
-/
import proofs.«181539_j60129542735_1_alg».proof.Defs
import proofs.«181539_j60129542735_1_alg».proof.Proof.Gen.Kernel
import proofs.«181539_j60129542735_1_alg».proof.Proof.Gen.Kernel.Skeleton
import proofs.«181539_j60129542735_1_alg».proof.Proof.Gen.Kernel.Launch
import proofs.«181539_j60129542735_1_alg».proof.Proof.Gen.Kernel.Points
import proofs.«181539_j60129542735_1_alg».proof.Proof.Gen.Kernel.Frame
import proofs.«181539_j60129542735_1_alg».proof.Proof.Gen.KernelIdeal
import proofs.«181539_j60129542735_1_alg».proof.Proof.Gen.KernelIdeal.Skeleton
import proofs.«181539_j60129542735_1_alg».proof.Proof.Gen.KernelIdeal.Launch
import proofs.«181539_j60129542735_1_alg».proof.Proof.Gen.KernelIdeal.Points
import proofs.«181539_j60129542735_1_alg».proof.Proof.Gen.KernelIdeal.Frame
import proofs.«181539_j60129542735_1_alg».proof.Proof.Gen.ReferenceIdeal
import proofs.«181539_j60129542735_1_alg».proof.Proof.Gen.Pre_finite_inputs
import proofs.«181539_j60129542735_1_alg».proof.Proof.RefStages
import proofs.«181539_j60129542735_1_alg».proof.Proof.KernelRun
import proofs.«181539_j60129542735_1_alg».proof.Proof.KernelValue
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Stages.run (F := Ideal) m ρ)

/-- Both programs end with the two-layer network of the (agreeing) arguments in their result buffers. -/
theorem algebraic : Cert.algebraic_KernelIdeal_ReferenceIdeal := by
  intro m ρ m' ρ' _ hagree
  refine ⟨fun c => Cert.Gcn.network (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5)), ?_, ?_⟩
  · exact (θ_run Cert.KernelIdeal.defs _ _).mono
      (fun r h c => ⟨(h c).1.trans (Cert.KernelIdeal.KernelValue.result_eq m ρ c), (h c).2⟩)
      (Cert.KernelIdeal.ResultRun.run_result (F := Ideal) m ρ)
  · refine (θ_run Cert.ReferenceIdeal.defs _ _).mono (fun r h c => ⟨(h c).1.trans ?_, (h c).2⟩)
      (Cert.ReferenceIdeal.Stages.run (F := Ideal) m' ρ')
    rw [(hagree c).1, (hagree c).2.1, (hagree c).2.2.1, (hagree c).2.2.2.1, (hagree c).2.2.2.2.1,
      (hagree c).2.2.2.2.2]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
